-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S500000 : Shape := ⟨1, ![500000]⟩
abbrev S50000x300 : Shape := ⟨2, ![50000, 300]⟩
abbrev S1000000x1 : Shape := ⟨2, ![1000000, 1]⟩
abbrev S300x20 : Shape := ⟨2, ![300, 20]⟩
abbrev S20 : Shape := ⟨1, ![20]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S300x20 : S_.BroadcastsInDim S300x20 (![] : Fin 0 → Fin S300x20.rank)
  reducesTo_S300x20_S_d0_1 : S300x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  main_v18

def fn {F : FTy → Type} [FloatOps F] (main_arg0 : IVec S100000 32) (main_arg1 : IVec S500000 32) (main_arg2 : IVec S500000 32) (main_arg3 : IVec S500000 32) (main_arg4 : IVec S100000 32) (main_arg5 : FVec F S50000x300 .f32) (main_arg6 : FVec F S1000000x1 .f32) (main_arg7 : FVec F S300x20 .f32) (main_arg8 : FVec F S20 .f32) : IVec S_ 1 :=
  let main_v0 : FVec F S50000x300 .f32 := Host.absf main_arg5
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S1000000x1 .f32 := Host.absf main_arg6
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S300x20 .f32 := Host.absf main_arg7
  let main_cst_2 : FVec F S_ .f32 := constant S_ .f32 0x7F800000#32
  let main_v10 : FVec F S300x20 .f32 := broadcastInDim S300x20 ![] bcast_S_S300x20 main_cst_2
  let main_v11 : IVec S300x20 1 := cmpf .olt main_v9 main_v10
  let main_c_3 : IVec S_ 1 := constantI S_ 1 1#1
  let main_v12 : IVec S_ 1 := (fun x v => Host.reduce IntOp.andi x v reducesTo_S300x20_S_d0_1 h_S_) main_v11 main_c_3
  let main_v13 : IVec S_ 1 := andi main_v8 main_v12
  let main_v14 : FVec F S20 .f32 := Host.absf main_arg8
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_v13 main_v16
-- ==== Kernel.lean ====
abbrev S100000 : Shape := ⟨1, ![100000]⟩
abbrev S500000 : Shape := ⟨1, ![500000]⟩
abbrev S50000x300 : Shape := ⟨2, ![50000, 300]⟩
abbrev S1000000x1 : Shape := ⟨2, ![1000000, 1]⟩
abbrev S300x20 : Shape := ⟨2, ![300, 20]⟩
abbrev S20 : Shape := ⟨1, ![20]⟩
abbrev S_ : Shape := ⟨0, ![]⟩
abbrev S500000x1 : Shape := ⟨2, ![500000, 1]⟩
abbrev S500000x300 : Shape := ⟨2, ![500000, 300]⟩
abbrev S100000x300 : Shape := ⟨2, ![100000, 300]⟩
abbrev S1x20 : Shape := ⟨2, ![1, 20]⟩
abbrev S100000x1 : Shape := ⟨2, ![100000, 1]⟩
abbrev S106496x300 : Shape := ⟨2, ![106496, 300]⟩
abbrev S106496x1 : Shape := ⟨2, ![106496, 1]⟩
abbrev S1x100000 : Shape := ⟨2, ![1, 100000]⟩
abbrev S1x106496 : Shape := ⟨2, ![1, 106496]⟩
abbrev S512x20 : Shape := ⟨2, ![512, 20]⟩
abbrev S8192x300 : Shape := ⟨2, ![8192, 300]⟩
abbrev S8192x1 : Shape := ⟨2, ![8192, 1]⟩
abbrev S1x8192 : Shape := ⟨2, ![1, 8192]⟩
abbrev S512x300 : Shape := ⟨2, ![512, 300]⟩
abbrev S512x8192 : Shape := ⟨2, ![512, 8192]⟩

abbrev nBuf : Space → Nat
  | .hbm => 61
  | .vmem => 10
  | .smem => 0
  | _ => 0

abbrev bufTy : (tb : Table) → Fin (tcTables nBuf tb) → BufTy
  | .hbm, ⟨0, _⟩ => ⟨S100000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S100000, .i32⟩
  | .hbm, ⟨5, _⟩ => ⟨S50000x300, .f32⟩
  | .hbm, ⟨6, _⟩ => ⟨S1000000x1, .f32⟩
  | .hbm, ⟨7, _⟩ => ⟨S300x20, .f32⟩
  | .hbm, ⟨8, _⟩ => ⟨S20, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000, .i32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x1, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x300, .f32⟩
  | .hbm, ⟨36, _⟩ => ⟨S500000x300, .f32⟩
  | .hbm, ⟨37, _⟩ => ⟨S500000x300, .f32⟩
  | .hbm, ⟨38, _⟩ => ⟨S_, .f32⟩
  | .hbm, ⟨39, _⟩ => ⟨S100000x300, .f32⟩
  | .hbm, ⟨40, _⟩ => ⟨S500000x1, .i32⟩
  | .hbm, ⟨41, _⟩ => ⟨S100000x300, .f32⟩
  | .hbm, ⟨42, _⟩ => ⟨S_, .f32⟩
  | .hbm, ⟨43, _⟩ => ⟨S500000, .f32⟩
  | .hbm, ⟨44, _⟩ => ⟨S_, .f32⟩
  | .hbm, ⟨45, _⟩ => ⟨S100000, .f32⟩
  | .hbm, ⟨46, _⟩ => ⟨S500000x1, .i32⟩
  | .hbm, ⟨47, _⟩ => ⟨S100000, .f32⟩
  | .hbm, ⟨48, _⟩ => ⟨S1x20, .f32⟩
  | .hbm, ⟨49, _⟩ => ⟨S100000x1, .f32⟩
  | .hbm, ⟨50, _⟩ => ⟨S_, .i32⟩
  | .hbm, ⟨51, _⟩ => ⟨S_, .f32⟩
  | .hbm, ⟨52, _⟩ => ⟨S106496x300, .f32⟩
  | .hbm, ⟨53, _⟩ => ⟨S_, .i32⟩
  | .hbm, ⟨54, _⟩ => ⟨S_, .f32⟩
  | .hbm, ⟨55, _⟩ => ⟨S106496x1, .f32⟩
  | .hbm, ⟨56, _⟩ => ⟨S1x100000, .i32⟩
  | .hbm, ⟨57, _⟩ => ⟨S_, .i32⟩
  | .hbm, ⟨58, _⟩ => ⟨S_, .i32⟩
  | .hbm, ⟨59, _⟩ => ⟨S1x106496, .i32⟩
  | .hbm, ⟨60, _⟩ => ⟨S512x20, .f32⟩
  | .local _ .vmem, ⟨0, _⟩ => ⟨S8192x300, .f32⟩
  | .local _ .vmem, ⟨1, _⟩ => ⟨S8192x300, .f32⟩
  | .local _ .vmem, ⟨2, _⟩ => ⟨S8192x1, .f32⟩
  | .local _ .vmem, ⟨3, _⟩ => ⟨S8192x1, .f32⟩
  | .local _ .vmem, ⟨4, _⟩ => ⟨S1x8192, .i32⟩
  | .local _ .vmem, ⟨5, _⟩ => ⟨S1x8192, .i32⟩
  | .local _ .vmem, ⟨6, _⟩ => ⟨S300x20, .f32⟩
  | .local _ .vmem, ⟨7, _⟩ => ⟨S1x20, .f32⟩
  | .local _ .vmem, ⟨8, _⟩ => ⟨S512x20, .f32⟩
  | .local _ .vmem, ⟨9, _⟩ => ⟨S512x300, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_call0_v0 : Ref sig .tc := ⟨.hbm, 51, rfl⟩
abbrev main_v32 : Ref sig .tc := ⟨.hbm, 52, rfl⟩
abbrev main_c_8 : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_call2_v0 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32 : BitVec 32 := 12#32
  let v24 : BitVec 1 := Scalar.cmpi .eq arg0 c12_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S300x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x300_0_1 : S500000x1.BroadcastsInDim S500000x300 (![0, 1] : Fin 2 → Fin S500000x300.rank)
  bcast_S_S100000x300 : S_.BroadcastsInDim S100000x300 (![] : Fin 0 → Fin S100000x300.rank)
  bcast_S_S100000 : S_.BroadcastsInDim S100000 (![] : Fin 0 → Fin S100000.rank)
  shapeCasts_S20_S1x20 : S20.ShapeCasts S1x20
  shapeCasts_S100000_S100000x1 : S100000.ShapeCasts S100000x1
  pads_S100000x300_S106496x300_064960_000 : S100000x300.Pads (![0, 0] : Fin 2 → Nat) ![6496, 0] ![0, 0] S106496x300
  h_S_ : 0 < S_.numel
  pads_S100000x1_S106496x1_064960_000 : S100000x1.Pads (![0, 0] : Fin 2 → Nat) ![6496, 0] ![0, 0] S106496x1
  shapeCasts_S100000_S1x100000 : S100000.ShapeCasts S1x100000
  pads_S1x100000_S1x106496_000_064960 : S1x100000.Pads (![0, 0] : Fin 2 → Nat) ![0, 6496] ![0, 0] S1x106496
  inb_S512x300_S512x300_0_0 : ∀ a, (![0, 0] : Fin 2 → Nat) a + S512x300.size a ≤ S512x300.size a
  h_S512x300 : 0 < S512x300.numel
  shapeCasts_S512x300_S512x300 : S512x300.ShapeCasts S512x300
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x300_S8192x300_0_0 : ∀ a, (![0, 0] : Fin 2 → Nat) a + S8192x300.size a ≤ S8192x300.size a
  h_S8192x300 : 0 < S8192x300.numel
  shapeCasts_S8192x300_S8192x300 : S8192x300.ShapeCasts S8192x300
  broadcasts_S8192x1_S8192x300 : S8192x1.Broadcasts S8192x300
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S512x8192_d0_w32 : S512x8192.Iotas .tc 32 [0]
  broadcasts_S1x8192_S512x8192 : S1x8192.Broadcasts S512x8192
  natLt_1_32 : 1 < 32
  inb_S300x20_S300x20_0_0 : ∀ a, (![0, 0] : Fin 2 → Nat) a + S300x20.size a ≤ S300x20.size a
  h_S300x20 : 0 < S300x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S512x20 : S1x20.Broadcasts S512x20
  inb_S512x20_S512x20_0_0 : ∀ a, (![0, 0] : Fin 2 → Nat) a + S512x20.size a ≤ S512x20.size a
  h_S512x20 : 0 < S512x20.numel
  gather_S100000_S500000x1_S500000_n_0_n_n_0_1_1_wf : GatherDims.WF S100000 S500000x1 S500000 [] [0] [] [0] [] 1 ![1]
  gather_S1000000x1_S500000x1_S500000x1_1_0_n_n_0_1_11_wf : GatherDims.WF S1000000x1 S500000x1 S500000x1 [1] [0] [] [0] [] 1 ![1, 1]
  gather_S50000x300_S500000x1_S500000x300_1_0_n_n_0_1_1300_wf : GatherDims.WF S50000x300 S500000x1 S500000x300 [1] [0] [] [0] [] 1 ![1, 300]
  scatter_S100000x300_S500000x1_S500000x300_1_0_0_1_wf : ScatterDims.WF S100000x300 S500000x1 S500000x300 [1] [0] [0] 1
  scatter_S100000_S500000x1_S500000_n_0_0_1_wf : ScatterDims.WF S100000 S500000x1 S500000 [] [0] [0] 1
  dot_S512x8192_S8192x300_S512x300_1_0_0_1_n_n_wf : DotDims.WF S512x8192 S8192x300 S512x300 [1] [0] [0] [1] [] []
  dot_S512x300_S300x20_S512x20_1_0_0_1_n_n_wf : DotDims.WF S512x300 S300x20 S512x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x300.size a ≤ S106496x300.size a
  hwx0_0 : ∀ i : grid0.Coords, EltTy.bits .f32 = 32 ∨ (Rect.block (s := S106496x300) S8192x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S106496x1.size a
  hwx0_1 : ∀ i : grid0.Coords, EltTy.bits .f32 = 32 ∨ (Rect.block (s := S106496x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x106496.size a
  hwx0_2 : ∀ i : grid0.Coords, EltTy.bits .i32 = 32 ∨ (Rect.block (s := S1x106496) S1x8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x20.size a ≤ S300x20.size a
  hwx0_3 : ∀ i : grid0.Coords, EltTy.bits .f32 = 32 ∨ (Rect.block (s := S300x20) S300x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x20.size a ≤ S512x20.size a
  hwx0_5 : ∀ i : grid0.Coords, EltTy.bits .f32 = 32 ∨ (Rect.block (s := S512x20) S512x20.size (cc0_transform_5 i) (hinb0_5 i)).WholeWords (EltTy.packing .f32)

variable [Facts₀]

def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S1000000x1_S500000x1_S500000x1_1_0_n_n_0_1_11 : GatherDims S1000000x1 S500000x1 S500000x1 where
  offsetDims := [1]
  collapsedSliceDims := [0]
  operandBatchingDims := []
  startIndicesBatchingDims := []
  startIndexMap := [0]
  indexVectorDim := 1
  sliceSizes := ![1, 1]
  wf := gather_S1000000x1_S500000x1_S500000x1_1_0_n_n_0_1_11_wf
def gather_S50000x300_S500000x1_S500000x300_1_0_n_n_0_1_1300 : GatherDims S50000x300 S500000x1 S500000x300 where
  offsetDims := [1]
  collapsedSliceDims := [0]
  operandBatchingDims := []
  startIndicesBatchingDims := []
  startIndexMap := [0]
  indexVectorDim := 1
  sliceSizes := ![1, 300]
  wf := gather_S50000x300_S500000x1_S500000x300_1_0_n_n_0_1_1300_wf
def scatter_S100000x300_S500000x1_S500000x300_1_0_0_1 : ScatterDims S100000x300 S500000x1 S500000x300 where
  updateWindowDims := [1]
  insertedWindowDims := [0]
  scatterDimsToOperandDims := [0]
  indexVectorDim := 1
  wf := scatter_S100000x300_S500000x1_S500000x300_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S512x8192_S8192x300_S512x300_1_0_0_1_n_n : DotDims S512x8192 S8192x300 S512x300 where
  lhsContracting := [1]
  rhsContracting := [0]
  lhsNonContracting := [0]
  rhsNonContracting := [1]
  lhsBatch := []
  rhsBatch := []
  wf := dot_S512x8192_S8192x300_S512x300_1_0_0_1_n_n_wf
def dot_S512x300_S300x20_S512x20_1_0_0_1_n_n : DotDims S512x300 S300x20 S512x20 where
  lhsContracting := [1]
  rhsContracting := [0]
  lhsNonContracting := [0]
  rhsNonContracting := [1]
  lhsBatch := []
  rhsBatch := []
  wf := dot_S512x300_S300x20_S512x20_1_0_0_1_n_n_wf

abbrev win0_0 : Pipeline.Window sig grid0 :=
  Pipeline.Window.ofSpec (Memref.whole main_v32) S8192x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S300x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S512x20.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S100000 : Shape := ⟨1, ![100000]⟩
abbrev S500000 : Shape := ⟨1, ![500000]⟩
abbrev S50000x300 : Shape := ⟨2, ![50000, 300]⟩
abbrev S1000000x1 : Shape := ⟨2, ![1000000, 1]⟩
abbrev S300x20 : Shape := ⟨2, ![300, 20]⟩
abbrev S20 : Shape := ⟨1, ![20]⟩
abbrev S_ : Shape := ⟨0, ![]⟩
abbrev S100000x1 : Shape := ⟨2, ![100000, 1]⟩
abbrev S100000x300 : Shape := ⟨2, ![100000, 300]⟩
abbrev S500000x1 : Shape := ⟨2, ![500000, 1]⟩
abbrev S500000x300 : Shape := ⟨2, ![500000, 300]⟩
abbrev S512x300 : Shape := ⟨2, ![512, 300]⟩
abbrev S512x20 : Shape := ⟨2, ![512, 20]⟩
abbrev S1x20 : Shape := ⟨2, ![1, 20]⟩

abbrev nBuf : Space → Nat
  | .hbm => 65
  | .vmem => 0
  | .smem => 0
  | _ => 0

abbrev bufTy : (tb : Table) → Fin (tcTables nBuf tb) → BufTy
  | .hbm, ⟨0, _⟩ => ⟨S100000, .i32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S100000, .i32⟩
  | .hbm, ⟨5, _⟩ => ⟨S50000x300, .f32⟩
  | .hbm, ⟨6, _⟩ => ⟨S1000000x1, .f32⟩
  | .hbm, ⟨7, _⟩ => ⟨S300x20, .f32⟩
  | .hbm, ⟨8, _⟩ => ⟨S20, .f32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x300, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x1, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x300, .f32⟩
  | .hbm, ⟨36, _⟩ => ⟨S500000x300, .f32⟩
  | .hbm, ⟨37, _⟩ => ⟨S500000x300, .f32⟩
  | .hbm, ⟨38, _⟩ => ⟨S_, .f32⟩
  | .hbm, ⟨39, _⟩ => ⟨S100000x300, .f32⟩
  | .hbm, ⟨40, _⟩ => ⟨S500000x1, .i32⟩
  | .hbm, ⟨41, _⟩ => ⟨S100000x300, .f32⟩
  | .hbm, ⟨42, _⟩ => ⟨S_, .f32⟩
  | .hbm, ⟨43, _⟩ => ⟨S500000, .f32⟩
  | .hbm, ⟨44, _⟩ => ⟨S_, .f32⟩
  | .hbm, ⟨45, _⟩ => ⟨S100000, .f32⟩
  | .hbm, ⟨46, _⟩ => ⟨S500000x1, .i32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x300, .f32⟩
  | .hbm, ⟨53, _⟩ => ⟨S100000x300, .f32⟩
  | .hbm, ⟨54, _⟩ => ⟨S_, .f32⟩
  | .hbm, ⟨55, _⟩ => ⟨S512x300, .f32⟩
  | .hbm, ⟨56, _⟩ => ⟨S100000x1, .i32⟩
  | .hbm, ⟨57, _⟩ => ⟨S512x300, .f32⟩
  | .hbm, ⟨58, _⟩ => ⟨S_, .f32⟩
  | .hbm, ⟨59, _⟩ => ⟨S512x300, .f32⟩
  | .hbm, ⟨60, _⟩ => ⟨S512x300, .f32⟩
  | .hbm, ⟨61, _⟩ => ⟨S512x20, .f32⟩
  | .hbm, ⟨62, _⟩ => ⟨S1x20, .f32⟩
  | .hbm, ⟨63, _⟩ => ⟨S512x20, .f32⟩
  | .hbm, ⟨64, _⟩ => ⟨S512x20, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x300_0_1 : S500000x1.BroadcastsInDim S500000x300 (![0, 1] : Fin 2 → Fin S500000x300.rank)
  bcast_S_S100000x300 : S_.BroadcastsInDim S100000x300 (![] : Fin 0 → Fin S100000x300.rank)
  bcast_S100000x1_S100000x300_0_1 : S100000x1.BroadcastsInDim S100000x300 (![0, 1] : Fin 2 → Fin S100000x300.rank)
  bcast_S_S512x300 : S_.BroadcastsInDim S512x300 (![] : Fin 0 → Fin S512x300.rank)
  bcast_S20_S1x20_1 : S20.BroadcastsInDim S1x20 (![1] : Fin 1 → Fin S1x20.rank)
  bcast_S1x20_S512x20_0_1 : S1x20.BroadcastsInDim S512x20 (![0, 1] : Fin 2 → Fin S512x20.rank)
  gather_S50000x300_S100000x1_S100000x300_1_0_n_n_0_1_1300_wf : GatherDims.WF S50000x300 S100000x1 S100000x300 [1] [0] [] [0] [] 1 ![1, 300]
  gather_S1000000x1_S500000x1_S500000x1_1_0_n_n_0_1_11_wf : GatherDims.WF S1000000x1 S500000x1 S500000x1 [1] [0] [] [0] [] 1 ![1, 1]
  gather_S100000x300_S500000x1_S500000x300_1_0_n_n_0_1_1300_wf : GatherDims.WF S100000x300 S500000x1 S500000x300 [1] [0] [] [0] [] 1 ![1, 300]
  scatter_S100000x300_S500000x1_S500000x300_1_0_0_1_wf : ScatterDims.WF S100000x300 S500000x1 S500000x300 [1] [0] [0] 1
  scatter_S100000_S500000x1_S500000_n_0_0_1_wf : ScatterDims.WF S100000 S500000x1 S500000 [] [0] [0] 1
  scatter_S512x300_S100000x1_S100000x300_1_0_0_1_wf : ScatterDims.WF S512x300 S100000x1 S100000x300 [1] [0] [0] 1
  dot_S512x300_S300x20_S512x20_1_0_0_1_n_n_wf : DotDims.WF S512x300 S300x20 S512x20 [1] [0] [0] [1] [] []

variable [Facts₀]

def gather_S50000x300_S100000x1_S100000x300_1_0_n_n_0_1_1300 : GatherDims S50000x300 S100000x1 S100000x300 where
  offsetDims := [1]
  collapsedSliceDims := [0]
  operandBatchingDims := []
  startIndicesBatchingDims := []
  startIndexMap := [0]
  indexVectorDim := 1
  sliceSizes := ![1, 300]
  wf := gather_S50000x300_S100000x1_S100000x300_1_0_n_n_0_1_1300_wf
def gather_S1000000x1_S500000x1_S500000x1_1_0_n_n_0_1_11 : GatherDims S1000000x1 S500000x1 S500000x1 where
  offsetDims := [1]
  collapsedSliceDims := [0]
  operandBatchingDims := []
  startIndicesBatchingDims := []
  startIndexMap := [0]
  indexVectorDim := 1
  sliceSizes := ![1, 1]
  wf := gather_S1000000x1_S500000x1_S500000x1_1_0_n_n_0_1_11_wf
def gather_S100000x300_S500000x1_S500000x300_1_0_n_n_0_1_1300 : GatherDims S100000x300 S500000x1 S500000x300 where
  offsetDims := [1]
  collapsedSliceDims := [0]
  operandBatchingDims := []
  startIndicesBatchingDims := []
  startIndexMap := [0]
  indexVectorDim := 1
  sliceSizes := ![1, 300]
  wf := gather_S100000x300_S500000x1_S500000x300_1_0_n_n_0_1_1300_wf
def scatter_S100000x300_S500000x1_S500000x300_1_0_0_1 : ScatterDims S100000x300 S500000x1 S500000x300 where
  updateWindowDims := [1]
  insertedWindowDims := [0]
  scatterDimsToOperandDims := [0]
  indexVectorDim := 1
  wf := scatter_S100000x300_S500000x1_S500000x300_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S512x300_S100000x1_S100000x300_1_0_0_1 : ScatterDims S512x300 S100000x1 S100000x300 where
  updateWindowDims := [1]
  insertedWindowDims := [0]
  scatterDimsToOperandDims := [0]
  indexVectorDim := 1
  wf := scatter_S512x300_S100000x1_S100000x300_1_0_0_1_wf
def dot_S512x300_S300x20_S512x20_1_0_0_1_n_n : DotDims S512x300 S300x20 S512x20 where
  lhsContracting := [1]
  rhsContracting := [0]
  lhsNonContracting := [0]
  rhsNonContracting := [1]
  lhsBatch := []
  rhsBatch := []
  wf := dot_S512x300_S300x20_S512x20_1_0_0_1_n_n_wf

class Facts : Prop extends Facts₀ where

variable [Facts]
-- ==== Proof.Pieces.lean ====
/-
  What one run of the kernel body leaves behind, case by case, as the body's own arithmetic.
  At the first grid point the accumulator is cleared and then updated; at every later point it is updated from what
  the point before left; at the last point the output block is computed from the updated accumulator.
-/
import proofs.«425665_j32229434589775_2_alg».proof.Proof.Gen.KernelIdeal.Frame
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.SL.Sem

variable {F : FTy → Type} [FloatOps F]

/-- The origin of a two-axis block, as the constant-zero offset. -/
private theorem hz : (![0, 0] : Fin 2 → Nat) = fun _ => 0 := funext fun a => by fin_cases a <;> rfl

/-- First point: the accumulator ends at the update of the cleared accumulator. -/
theorem scratch_A (c : Dev nD) (i : grid0.Coords) (arg1 : Memref sig .tc .vmem S8192x300 .f32) (harg1 : arg1.IsWhole) (arg2 : Memref sig .tc .vmem S8192x1 .f32) (harg2 : arg2.IsWhole) (arg3 : Memref sig .tc .vmem S1x8192 .i32) (harg3 : arg3.IsWhole) (arg4 : Memref sig .tc .vmem S300x20 .f32) (harg4 : arg4.IsWhole) (arg5 : Memref sig .tc .vmem S1x20 .f32) (harg5 : arg5.IsWhole) (arg6 : Memref sig .tc .vmem S512x20 .f32) (harg6 : arg6.IsWhole) (arg7 : Memref sig .tc .vmem S512x300 .f32) (harg7 : arg7.IsWhole) (hc0 : cond0_0 i) (hc1 : ¬cond0_1 i)
    (x0 : Vec F S8192x300 .f32) (x1 : Vec F S8192x1 .f32) (x2 : Vec F S1x8192 .i32) (x3 : Vec F S300x20 .f32) (x4 : Vec F S1x20 .f32) :
    sout0_A_0 c i arg1 harg1 arg2 harg2 arg3 harg3 arg4 harg4 arg5 harg5 arg6 harg6 arg7 harg7 hc0 hc1 x0 x1 x2 x3 x4 = k0_pay2 x1 x0 x2 (k0_pay1 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S512x300) hz, View.readCov_unit_zero (S := S512x300) _ hz]
  simp only [View.readAt_eq_ld, harg1.read_unread, harg2.read_unread, harg3.read_unread, harg7.read_unread,
    View.ld_unit_zero (S := S8192x300) hz, View.ld_unit_zero (S := S8192x1) hz, View.ld_unit_zero (S := S1x8192) hz,
    View.ld_unit_zero (S := S512x300) hz, shapeCast_self]

/-- A middle point: the accumulator ends at the update of what it held. -/
theorem scratch_B (c : Dev nD) (i : grid0.Coords) (arg1 : Memref sig .tc .vmem S8192x300 .f32) (harg1 : arg1.IsWhole) (arg2 : Memref sig .tc .vmem S8192x1 .f32) (harg2 : arg2.IsWhole) (arg3 : Memref sig .tc .vmem S1x8192 .i32) (harg3 : arg3.IsWhole) (arg4 : Memref sig .tc .vmem S300x20 .f32) (harg4 : arg4.IsWhole) (arg5 : Memref sig .tc .vmem S1x20 .f32) (harg5 : arg5.IsWhole) (arg6 : Memref sig .tc .vmem S512x20 .f32) (harg6 : arg6.IsWhole) (arg7 : Memref sig .tc .vmem S512x300 .f32) (harg7 : arg7.IsWhole) (hc0 : ¬cond0_0 i) (hc1 : ¬cond0_1 i)
    (x0 : Vec F S8192x300 .f32) (x1 : Vec F S8192x1 .f32) (x2 : Vec F S1x8192 .i32) (x3 : Vec F S300x20 .f32) (x4 : Vec F S1x20 .f32) (xs0 : Vec F S512x300 .f32) :
    sout0_B_0 c i arg1 harg1 arg2 harg2 arg3 harg3 arg4 harg4 arg5 harg5 arg6 harg6 arg7 harg7 hc0 hc1 x0 x1 x2 x3 x4 xs0 = k0_pay2 x1 x0 x2 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xs0)]
  unfold kernelRun0_B
  dsimp only
  rw [View.canon_unit_zero hz]
  simp only [View.readAt_eq_ld, harg1.read_unread, harg2.read_unread, harg3.read_unread, harg7.read_unread,
    View.ld_unit_zero (S := S8192x300) hz, View.ld_unit_zero (S := S8192x1) hz, View.ld_unit_zero (S := S1x8192) hz,
    View.ld_unit_zero (S := S512x300) hz, shapeCast_self]

/-- The last point: the accumulator ends at the update of what it held … -/
theorem scratch_C (c : Dev nD) (i : grid0.Coords) (arg1 : Memref sig .tc .vmem S8192x300 .f32) (harg1 : arg1.IsWhole) (arg2 : Memref sig .tc .vmem S8192x1 .f32) (harg2 : arg2.IsWhole) (arg3 : Memref sig .tc .vmem S1x8192 .i32) (harg3 : arg3.IsWhole) (arg4 : Memref sig .tc .vmem S300x20 .f32) (harg4 : arg4.IsWhole) (arg5 : Memref sig .tc .vmem S1x20 .f32) (harg5 : arg5.IsWhole) (arg6 : Memref sig .tc .vmem S512x20 .f32) (harg6 : arg6.IsWhole) (arg7 : Memref sig .tc .vmem S512x300 .f32) (harg7 : arg7.IsWhole) (hc0 : ¬cond0_0 i) (hc1 : cond0_1 i)
    (x0 : Vec F S8192x300 .f32) (x1 : Vec F S8192x1 .f32) (x2 : Vec F S1x8192 .i32) (x3 : Vec F S300x20 .f32) (x4 : Vec F S1x20 .f32) (xs0 : Vec F S512x300 .f32) :
    sout0_C_0 c i arg1 harg1 arg2 harg2 arg3 harg3 arg4 harg4 arg5 harg5 arg6 harg6 arg7 harg7 hc0 hc1 x0 x1 x2 x3 x4 xs0 = k0_pay2 x1 x0 x2 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg7.read_unread,
    View.ld_unit_zero (S := S8192x300) hz, View.ld_unit_zero (S := S8192x1) hz, View.ld_unit_zero (S := S1x8192) hz,
    View.ld_unit_zero (S := S512x300) hz, shapeCast_self]

/-- … and the output block is the final stage applied to that updated accumulator. -/
theorem out_C (c : Dev nD) (i : grid0.Coords) (arg1 : Memref sig .tc .vmem S8192x300 .f32) (harg1 : arg1.IsWhole) (arg2 : Memref sig .tc .vmem S8192x1 .f32) (harg2 : arg2.IsWhole) (arg3 : Memref sig .tc .vmem S1x8192 .i32) (harg3 : arg3.IsWhole) (arg4 : Memref sig .tc .vmem S300x20 .f32) (harg4 : arg4.IsWhole) (arg5 : Memref sig .tc .vmem S1x20 .f32) (harg5 : arg5.IsWhole) (arg6 : Memref sig .tc .vmem S512x20 .f32) (harg6 : arg6.IsWhole) (arg7 : Memref sig .tc .vmem S512x300 .f32) (harg7 : arg7.IsWhole) (hc0 : ¬cond0_0 i) (hc1 : cond0_1 i)
    (x0 : Vec F S8192x300 .f32) (x1 : Vec F S8192x1 .f32) (x2 : Vec F S1x8192 .i32) (x3 : Vec F S300x20 .f32) (x4 : Vec F S1x20 .f32) (xs0 : Vec F S512x300 .f32) :
    out0_C_5 c i arg1 harg1 arg2 harg2 arg3 harg3 arg4 harg4 arg5 harg5 arg6 harg6 arg7 harg7 hc0 hc1 x0 x1 x2 x3 x4 xs0 = k0_pay3 (k0_pay2 x1 x0 x2 xs0) x3 x4 := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz]
  simp only [View.readAt_eq_ld, harg1.read_unread, harg2.read_unread, harg3.read_unread, harg7.read_unread,
    harg4.read_unread, harg5.read_unread, View.readCov_unit_zero (S := S512x300) _ hz,
    View.ld_unit_zero (S := S300x20) hz, View.ld_unit_zero (S := S1x20) hz,
    View.ld_unit_zero (S := S8192x300) hz, View.ld_unit_zero (S := S8192x1) hz, View.ld_unit_zero (S := S1x8192) hz,
    View.ld_unit_zero (S := S512x300) hz, shapeCast_self]

end Cert.KernelIdeal.Hand

end
-- ==== Proof.Payload.lean ====
/-
  The body's arithmetic on the extended reals, entry by entry.
  The update adds to accumulator entry (g, d) the sum over the block's 8192 nodes k of [gid k = g] · sm[k, d] / max(cnt[k], 1):
  the one-hot weight is 1 when node k's graph id is the word g and 0 otherwise. The final stage is
  (∑ d, max(acc[g, d], 0) · w[d, e]) + b[e].
-/
import proofs.«425665_j32229434589775_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-- The one-hot weight of a node whose graph id is the word `w`, for graph `g`. -/
def hot (g : Fin 512) (w : BitVec 32) : EReal := if w.toInt = (g.val : ℤ) then 1 else 0

/-! ## Helpers: the two contractions re-indexed by their one coordinate, the one-hot word, the two factors -/

/-- The first product's operand indices, coordinate by coordinate. -/
private theorem lhsA_0 (i : S512x300.Idx) (q : dot_S512x8192_S8192x300_S512x300_1_0_0_1_n_n.contr.Idx) :
    (dot_S512x8192_S8192x300_S512x300_1_0_0_1_n_n.lhsIdx i q 0).val = (i 0).val := by
  unfold DotDims.lhsIdx
  rw [dif_neg (show ¬(0 : Fin S512x8192.rank) ∈ dot_S512x8192_S8192x300_S512x300_1_0_0_1_n_n.lhsBatch by decide), dif_pos (show (0 : Fin S512x8192.rank) ∈ dot_S512x8192_S8192x300_S512x300_1_0_0_1_n_n.lhsNonContracting by decide)]
  rfl
private theorem lhsA_1 (i : S512x300.Idx) (q : dot_S512x8192_S8192x300_S512x300_1_0_0_1_n_n.contr.Idx) :
    (dot_S512x8192_S8192x300_S512x300_1_0_0_1_n_n.lhsIdx i q 1).val = (q ⟨0, by decide⟩).val :=
  dot_S512x8192_S8192x300_S512x300_1_0_0_1_n_n.lhsIdx_val_of_single rfl i q
private theorem rhsA_0 (i : S512x300.Idx) (q : dot_S512x8192_S8192x300_S512x300_1_0_0_1_n_n.contr.Idx) :
    (dot_S512x8192_S8192x300_S512x300_1_0_0_1_n_n.rhsIdx i q 0).val = (q ⟨0, by decide⟩).val :=
  dot_S512x8192_S8192x300_S512x300_1_0_0_1_n_n.rhsIdx_val_of_single rfl i q
private theorem rhsA_1 (i : S512x300.Idx) (q : dot_S512x8192_S8192x300_S512x300_1_0_0_1_n_n.contr.Idx) :
    (dot_S512x8192_S8192x300_S512x300_1_0_0_1_n_n.rhsIdx i q 1).val = (i 1).val := by
  unfold DotDims.rhsIdx
  rw [dif_neg (show ¬(1 : Fin S8192x300.rank) ∈ dot_S512x8192_S8192x300_S512x300_1_0_0_1_n_n.rhsBatch by decide), dif_pos (show (1 : Fin S8192x300.rank) ∈ dot_S512x8192_S8192x300_S512x300_1_0_0_1_n_n.rhsNonContracting by decide)]
  rfl

/-- The first product's contraction, re-indexed by its one coordinate. -/
private theorem mmA_apply (lhs : FVec Ideal S512x8192 .f32) (rhs : FVec Ideal S8192x300 .f32) (g : Fin 512) (d : Fin 300) :
    matmul dot_S512x8192_S8192x300_S512x300_1_0_0_1_n_n none lhs rhs (constant S512x300 .f32 0x00000000#32) (ix2 g d)
      = ∑ k : Fin 8192, lhs (ix2 g k) * rhs (ix2 k d) := by
  refine (Ideal.matmul_constant_zero_apply _ _ _ _ _).trans ?_
  rw [← Equiv.sum_comp (ValueIdx.contrEquiv1 dot_S512x8192_S8192x300_S512x300_1_0_0_1_n_n 8192 rfl rfl).symm]
  refine Finset.sum_congr rfl fun k _ => ?_
  have hk := ValueIdx.contrEquiv1_symm_val dot_S512x8192_S8192x300_S512x300_1_0_0_1_n_n 8192 rfl rfl k
  have el : dot_S512x8192_S8192x300_S512x300_1_0_0_1_n_n.lhsIdx (ix2 g d) ((ValueIdx.contrEquiv1 dot_S512x8192_S8192x300_S512x300_1_0_0_1_n_n 8192 rfl rfl).symm k) = ix2 g k := funext fun a => Fin.ext (by
    match a with
    | ⟨0, _⟩ => exact lhsA_0 _ _
    | ⟨1, _⟩ => exact (lhsA_1 _ _).trans hk)
  have er : dot_S512x8192_S8192x300_S512x300_1_0_0_1_n_n.rhsIdx (ix2 g d) ((ValueIdx.contrEquiv1 dot_S512x8192_S8192x300_S512x300_1_0_0_1_n_n 8192 rfl rfl).symm k) = ix2 k d := funext fun a => Fin.ext (by
    match a with
    | ⟨0, _⟩ => exact (rhsA_0 _ _).trans hk
    | ⟨1, _⟩ => exact rhsA_1 _ _)
  rw [el, er]

/-- The word of a graph number below 512 equals a 32-bit word exactly when the word, read signed, is that number. -/
private theorem word_eq_iff (g : Fin 512) (w : BitVec 32) : BitVec.ofNat 32 g.val = w ↔ w.toInt = (g.val : ℤ) := by
  rw [← BitVec.toNat_inj, BitVec.toNat_ofNat, BitVec.toInt_eq_toNat_cond]
  have h1 := w.isLt
  have h2 := g.isLt
  split <;> omega

/-- The one-hot weight as the comparison bit, widened and read as a signed integer. -/
private theorem hot_eq (g : Fin 512) (w : BitVec 32) :
    (((((IntOp.cmpi .eq (BitVec.ofNat 32 g.val) w).setWidth 32).toInt : ℤ) : ℝ) : EReal) = hot g w := by
  rw [toInt_setWidth_bit]
  unfold hot IntOp.cmpi
  by_cases h : BitVec.ofNat 32 g.val = w
  · rw [if_pos ((word_eq_iff g w).1 h)]
    have hb : (BitVec.ofNat 32 g.val == w) = true := by rw [beq_iff_eq]; exact h
    rw [hb]
    show ((((1 : ℕ) : ℤ) : ℝ) : EReal) = 1
    rw [Nat.cast_one, Int.cast_one, EReal.coe_one]
  · rw [if_neg (fun h' => h ((word_eq_iff g w).2 h'))]
    have hb : (BitVec.ofNat 32 g.val == w) = false := by rw [beq_eq_false_iff_ne]; exact h
    rw [hb]
    show ((((0 : ℕ) : ℤ) : ℝ) : EReal) = 0
    rw [Nat.cast_zero, Int.cast_zero, EReal.coe_zero]

/-- The left factor at (g, k): the one-hot weight of node k's graph id for graph g. -/
private theorem left_apply (gid : Vec Ideal S1x8192 .i32) (g : Fin 512) (k : Fin 8192) :
    (sitofp .f32 (extui 32 (cmpi .eq (iota .tc S512x8192 32 [0] iota_S512x8192_d0_w32)
        (broadcastTo S512x8192 gid broadcasts_S1x8192_S512x8192)) natLt_1_32) : FVec Ideal S512x8192 .f32) (ix2 g k)
      = hot g (gid (ix2 (0 : Fin 1) k)) := by
  rw [sitofp_apply, extui_apply]
  show FloatOps.sitofp (F := Ideal) .f32 ((IntOp.cmpi .eq (iota .tc S512x8192 32 [0] iota_S512x8192_d0_w32 (ix2 g k))
        (broadcastTo S512x8192 gid broadcasts_S1x8192_S512x8192 (ix2 g k))).setWidth 32) = _
  rw [iota_single_apply, broadcastTo_apply gid broadcasts_S1x8192_S512x8192 (ix2 g k) (ix2 (0 : Fin 1) k) (fun a => match a with
    | ⟨0, _⟩ => by show 0 = if (1 : Nat) = 1 then 0 else g.val; rw [if_pos rfl]
    | ⟨1, _⟩ => by show k.val = if (8192 : Nat) = 1 then 0 else k.val; rw [if_neg (by decide)])]
  exact hot_eq g _

/-- The right factor at (k, d): the feature over the clamped count. -/
private theorem right_apply (cnt : Vec Ideal S8192x1 .f32) (sm : Vec Ideal S8192x300 .f32) (k : Fin 8192) (d : Fin 300) :
    divf sm (broadcastTo S8192x300 (maximumf cnt (broadcast S8192x1 (Scalar.ofBits (F := Ideal) .f32 0x3F800000#32)))
        broadcasts_S8192x1_S8192x300) (ix2 k d)
      = Ideal.div (sm (ix2 k d)) (max (cnt (ix2 k (0 : Fin 1))) (Ideal.ofBits .f32 0x3F800000#32)) := by
  rw [divf_apply, broadcastTo_apply _ broadcasts_S8192x1_S8192x300 (ix2 k d) (ix2 k (0 : Fin 1)) (fun a => match a with
    | ⟨0, _⟩ => by show k.val = if (8192 : Nat) = 1 then 0 else k.val; rw [if_neg (by decide)]
    | ⟨1, _⟩ => by show 0 = if (1 : Nat) = 1 then 0 else d.val; rw [if_pos rfl])]
  rfl

/-- The second product's operand indices, coordinate by coordinate. -/
private theorem lhsB_0 (i : S512x20.Idx) (q : dot_S512x300_S300x20_S512x20_1_0_0_1_n_n.contr.Idx) :
    (dot_S512x300_S300x20_S512x20_1_0_0_1_n_n.lhsIdx i q 0).val = (i 0).val := by
  unfold DotDims.lhsIdx
  rw [dif_neg (show ¬(0 : Fin S512x300.rank) ∈ dot_S512x300_S300x20_S512x20_1_0_0_1_n_n.lhsBatch by decide), dif_pos (show (0 : Fin S512x300.rank) ∈ dot_S512x300_S300x20_S512x20_1_0_0_1_n_n.lhsNonContracting by decide)]
  rfl
private theorem lhsB_1 (i : S512x20.Idx) (q : dot_S512x300_S300x20_S512x20_1_0_0_1_n_n.contr.Idx) :
    (dot_S512x300_S300x20_S512x20_1_0_0_1_n_n.lhsIdx i q 1).val = (q ⟨0, by decide⟩).val :=
  dot_S512x300_S300x20_S512x20_1_0_0_1_n_n.lhsIdx_val_of_single rfl i q
private theorem rhsB_0 (i : S512x20.Idx) (q : dot_S512x300_S300x20_S512x20_1_0_0_1_n_n.contr.Idx) :
    (dot_S512x300_S300x20_S512x20_1_0_0_1_n_n.rhsIdx i q 0).val = (q ⟨0, by decide⟩).val :=
  dot_S512x300_S300x20_S512x20_1_0_0_1_n_n.rhsIdx_val_of_single rfl i q
private theorem rhsB_1 (i : S512x20.Idx) (q : dot_S512x300_S300x20_S512x20_1_0_0_1_n_n.contr.Idx) :
    (dot_S512x300_S300x20_S512x20_1_0_0_1_n_n.rhsIdx i q 1).val = (i 1).val := by
  unfold DotDims.rhsIdx
  rw [dif_neg (show ¬(1 : Fin S300x20.rank) ∈ dot_S512x300_S300x20_S512x20_1_0_0_1_n_n.rhsBatch by decide), dif_pos (show (1 : Fin S300x20.rank) ∈ dot_S512x300_S300x20_S512x20_1_0_0_1_n_n.rhsNonContracting by decide)]
  rfl

/-- The second product's contraction, re-indexed by its one coordinate. -/
private theorem mmB_apply (lhs : FVec Ideal S512x300 .f32) (rhs : FVec Ideal S300x20 .f32) (g : Fin 512) (e : Fin 20) :
    matmul dot_S512x300_S300x20_S512x20_1_0_0_1_n_n none lhs rhs (constant S512x20 .f32 0x00000000#32) (ix2 g e)
      = ∑ d : Fin 300, lhs (ix2 g d) * rhs (ix2 d e) := by
  refine (Ideal.matmul_constant_zero_apply _ _ _ _ _).trans ?_
  rw [← Equiv.sum_comp (ValueIdx.contrEquiv1 dot_S512x300_S300x20_S512x20_1_0_0_1_n_n 300 rfl rfl).symm]
  refine Finset.sum_congr rfl fun k _ => ?_
  have hk := ValueIdx.contrEquiv1_symm_val dot_S512x300_S300x20_S512x20_1_0_0_1_n_n 300 rfl rfl k
  have el : dot_S512x300_S300x20_S512x20_1_0_0_1_n_n.lhsIdx (ix2 g e) ((ValueIdx.contrEquiv1 dot_S512x300_S300x20_S512x20_1_0_0_1_n_n 300 rfl rfl).symm k) = ix2 g k := funext fun a => Fin.ext (by
    match a with
    | ⟨0, _⟩ => exact lhsB_0 _ _
    | ⟨1, _⟩ => exact (lhsB_1 _ _).trans hk)
  have er : dot_S512x300_S300x20_S512x20_1_0_0_1_n_n.rhsIdx (ix2 g e) ((ValueIdx.contrEquiv1 dot_S512x300_S300x20_S512x20_1_0_0_1_n_n 300 rfl rfl).symm k) = ix2 k e := funext fun a => Fin.ext (by
    match a with
    | ⟨0, _⟩ => exact (rhsB_0 _ _).trans hk
    | ⟨1, _⟩ => exact rhsB_1 _ _)
  rw [el, er]

/-- The cleared accumulator is zero everywhere. -/
theorem pay1_apply (j : S512x300.Idx) : k0_pay1 (F := Ideal) j = 0 := by
  unfold k0_pay1
  rw [shapeCast_self]
  show Ideal.ofBits .f32 0x00000000#32 = 0
  exact Ideal.ofBits_zero_f32

/-- THE UPDATE AT `(g, d)`. -/
theorem pay2_apply (cnt : Vec Ideal S8192x1 .f32) (sm : Vec Ideal S8192x300 .f32) (gid : Vec Ideal S1x8192 .i32)
    (acc : Vec Ideal S512x300 .f32) (g : Fin 512) (d : Fin 300) :
    k0_pay2 cnt sm gid acc (ix2 g d)
      = acc (ix2 g d) + ∑ k : Fin 8192, hot g (gid (ix2 (0 : Fin 1) k))
          * Ideal.div (sm (ix2 k d)) (max (cnt (ix2 k (0 : Fin 1))) (Ideal.ofBits .f32 0x3F800000#32)) := by
  unfold k0_pay2
  rw [shapeCast_self, shapeCast_self, shapeCast_self, shapeCast_self]
  refine (addf_apply _ _ _).trans ?_
  refine congrArg (acc (ix2 g d) + ·) ?_
  refine (mmA_apply _ _ g d).trans ?_
  refine Finset.sum_congr rfl fun k _ => ?_
  rw [left_apply, right_apply]

/-- THE FINAL STAGE AT `(g, e)`. -/
theorem pay3_apply (acc : Vec Ideal S512x300 .f32) (w : Vec Ideal S300x20 .f32) (b : Vec Ideal S1x20 .f32)
    (g : Fin 512) (e : Fin 20) :
    k0_pay3 acc w b (ix2 g e)
      = (∑ d : Fin 300, max (acc (ix2 g d)) 0 * w (ix2 d e)) + b (ix2 (0 : Fin 1) e) := by
  unfold k0_pay3
  rw [shapeCast_self]
  refine (addf_apply _ _ _).trans ?_
  rw [mmB_apply, broadcastTo_apply b broadcasts_S1x20_S512x20 (ix2 g e) (ix2 (0 : Fin 1) e) (fun a => match a with
    | ⟨0, _⟩ => by show 0 = if (1 : Nat) = 1 then 0 else g.val; rw [if_pos rfl]
    | ⟨1, _⟩ => by show e.val = if (20 : Nat) = 1 then 0 else e.val; rw [if_neg (by decide)])]
  refine congrArg (· + b (ix2 (0 : Fin 1) e)) ?_
  refine Finset.sum_congr rfl fun d _ => ?_
  rw [maximumf_apply, broadcast_apply]
  show max (acc (ix2 g d)) (Ideal.ofBits .f32 0x00000000#32) * _ = _
  rw [Ideal.ofBits_zero_f32]

end Cert.KernelIdeal.Hand

end
-- ==== Proof.HostIn.lean ====
/-
  The arrays the kernel region finds, in terms of the program's arguments.
  Before the region the host computes, per node, the summed incoming messages `SmK` (each edge's message is the
  table row of its source node's id times the edge's weight) and the in-degree `CtK`, pads both with zero rows up to
  13 · 8192 nodes, pads the row of graph ids with −1, and reshapes the bias to one row.
-/
import proofs.«425665_j32229434589775_2_alg».proof.Proof.Gen.KernelIdeal.Frame
import Idealize.ShloMosaic.Lib.Pipeline.Value
import Idealize.ShloMosaic.Lib.ValueIdx
import Idealize.ShloMosaic.Lib.KernelVsHost
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Each edge's source node, a negative word wrapped by the number of nodes. -/
def srcIdx (c : Dev nD) : IVec S500000 32 :=
  select (cmpi .slt (m ((c : Thread nD τ).loc main_arg2)) (broadcastInDim S500000 ![] bcast_S_S500000 (constantI S_ 32 0#32)))
    (addi (m ((c : Thread nD τ).loc main_arg2)) (broadcastInDim S500000 ![] bcast_S_S500000 (constantI S_ 32 100000#32)))
    (m ((c : Thread nD τ).loc main_arg2))

/-- Each edge's source node's id in the node table. -/
def srcRow (c : Dev nD) : IVec S500000 32 :=
  Host.gather gather_S100000_S500000x1_S500000_n_0_n_n_0_1_1 (m ((c : Thread nD τ).loc main_arg0))
    (broadcastInDim S500000x1 ![0] bcast_S500000_S500000x1_0 (srcIdx m c))

/-- That id, a negative word wrapped by the table's length. -/
def rowIdx (c : Dev nD) : IVec S500000 32 :=
  select (cmpi .slt (srcRow m c) (broadcastInDim S500000 ![] bcast_S_S500000 (constantI S_ 32 0#32)))
    (addi (srcRow m c) (broadcastInDim S500000 ![] bcast_S_S500000 (constantI S_ 32 50000#32)))
    (srcRow m c)

/-- Each edge's source node's feature row. -/
def feat (c : Dev nD) : FVec Ideal S500000x300 .f32 :=
  Host.gather gather_S50000x300_S500000x1_S500000x300_1_0_n_n_0_1_1300 (m ((c : Thread nD τ).loc main_arg5))
    (broadcastInDim S500000x1 ![0] bcast_S500000_S500000x1_0 (rowIdx m c))

/-- Each edge's id in the edge table, a negative word wrapped by the table's length. -/
def edgeIdx (c : Dev nD) : IVec S500000 32 :=
  select (cmpi .slt (m ((c : Thread nD τ).loc main_arg1)) (broadcastInDim S500000 ![] bcast_S_S500000 (constantI S_ 32 0#32)))
    (addi (m ((c : Thread nD τ).loc main_arg1)) (broadcastInDim S500000 ![] bcast_S_S500000 (constantI S_ 32 1000000#32)))
    (m ((c : Thread nD τ).loc main_arg1))

/-- Each edge's weight, laid along its message's 300 features. -/
def wgt (c : Dev nD) : FVec Ideal S500000x300 .f32 :=
  broadcastInDim S500000x300 ![0, 1] bcast_S500000x1_S500000x300_0_1
    (Host.gather gather_S1000000x1_S500000x1_S500000x1_1_0_n_n_0_1_11 (m ((c : Thread nD τ).loc main_arg6))
      (broadcastInDim S500000x1 ![0] bcast_S500000_S500000x1_0 (edgeIdx m c)))

/-- Per node, the sum of its incoming edges' messages. -/
def SmK (c : Dev nD) : FVec Ideal S100000x300 .f32 :=
  Host.scatterAdd scatter_S100000x300_S500000x1_S500000x300_1_0_0_1
    (broadcastInDim S100000x300 ![] bcast_S_S100000x300 (constant (F := Ideal) S_ .f32 0x00000000#32))
    (broadcastInDim S500000x1 ![0] bcast_S500000_S500000x1_0 (m ((c : Thread nD τ).loc main_arg3)))
    (mulf (feat m c) (wgt m c))

/-- Per node, the number of its incoming edges. -/
def CtK (c : Dev nD) : FVec Ideal S100000 .f32 :=
  Host.scatterAdd scatter_S100000_S500000x1_S500000_n_0_0_1
    (broadcastInDim S100000 ![] bcast_S_S100000 (constant (F := Ideal) S_ .f32 0x00000000#32))
    (broadcastInDim S500000x1 ![0] bcast_S500000_S500000x1_0 (m ((c : Thread nD τ).loc main_arg3)))
    (broadcastInDim S500000 ![] bcast_S_S500000 (constant (F := Ideal) S_ .f32 0x3F800000#32))

/-- The padded summed messages: node `n`'s row below 100000, a zero row from there on. -/
theorem v32_apply (c : Dev nD) (n : Fin 106496) (d : Fin 300) :
    (V m c main_v32 : S106496x300.Idx → EReal) (ix2 n d)
      = if h : n.val < 100000 then SmK m c (ix2 ⟨n.val, h⟩ d) else 0 := by
  -- the buffer is the pad of the summed messages by the converted integer zero
  have e0 : (V m c main_v32 : S106496x300.Idx → EReal)
      = pad S106496x300 ![0, 0] ![6496, 0] ![0, 0] (SmK m c) (sitofp .f32 (constantI S_ 32 0#32))
          pads_S100000x300_S106496x300_064960_000 h_S_ := by
    dsimp only [Gen.V]
    simp only [Gen.hostOps0, Gen.hostOps0_1, Gen.hostOps0_2, Gen.hostOps0_3, Gen.hostOps0_4, Gen.hostOps0_5, List.flatten_cons, List.flatten_nil, List.append_nil, List.cons_append, List.nil_append]
    after_results_simp
    rfl
  rw [e0]
  by_cases h : n.val < 100000
  · -- row n is one of the operand's: nothing is added below it and nothing between rows
    rw [dif_pos h]
    exact pad_apply_of_inside _ _ _ _ _ _ _ _ (ix2 (⟨n.val, h⟩ : Fin 100000) d) (fun a => match a with
      | ⟨0, _⟩ => by show n.val = 0 + n.val * (0 + 1); omega
      | ⟨1, _⟩ => by show d.val = 0 + d.val * (0 + 1); omega)
  · -- row n is past the operand's last row: the padding value, the integer zero as a float
    rw [dif_neg h]
    refine (pad_apply_of_not_inside _ _ _ _ _ _ _ _ (0 : Fin 2) ?_).trans ?_
    · intro hin
      have h2 : (n.val - 0) / (0 + 1) < 100000 := hin.2.2
      omega
    · show (Scalar.sitofp .f32 0#32 : Ideal .f32) = 0
      exact sitofp_zero

/-- The padded in-degrees, as a column: node `n`'s below 100000, zero from there on. -/
theorem v33_apply (c : Dev nD) (n : Fin 106496) :
    (V m c main_v33 : S106496x1.Idx → EReal) (ix2 n (0 : Fin 1))
      = if h : n.val < 100000 then CtK m c (ix1 ⟨n.val, h⟩) else 0 := by
  -- the buffer is the pad of the in-degrees, laid as a column, by the converted integer zero
  have e0 : (V m c main_v33 : S106496x1.Idx → EReal)
      = pad S106496x1 ![0, 0] ![6496, 0] ![0, 0]
          (shapeCast S100000x1 (CtK m c) shapeCasts_S100000_S100000x1) (sitofp .f32 (constantI S_ 32 0#32))
          pads_S100000x1_S106496x1_064960_000 h_S_ := by
    dsimp only [Gen.V]
    simp only [Gen.hostOps0, Gen.hostOps0_1, Gen.hostOps0_2, Gen.hostOps0_3, Gen.hostOps0_4, Gen.hostOps0_5, List.flatten_cons, List.flatten_nil, List.append_nil, List.cons_append, List.nil_append]
    after_results_simp
    rfl
  rw [e0]
  by_cases h : n.val < 100000
  · -- row n is one of the column's; entry (n, 0) of the column and entry n of the vector share the row-major position n
    rw [dif_pos h]
    refine (pad_apply_of_inside _ _ _ _ _ _ _ _ (ix2 (⟨n.val, h⟩ : Fin 100000) (0 : Fin 1)) (fun a => match a with
      | ⟨0, _⟩ => by show n.val = 0 + n.val * (0 + 1); omega
      | ⟨1, _⟩ => by show (0 : Fin 1).val = 0 + (0 : Fin 1).val * (0 + 1); omega)).trans ?_
    exact shapeCast_apply _ _ _ _ (by
      rw [Shape.rowMajor_val_two, Shape.rowMajor_val_one]
      show n.val = n.val * 1 + 0
      omega)
  · -- row n is past the column's last row: the padding value, the integer zero as a float
    rw [dif_neg h]
    refine (pad_apply_of_not_inside _ _ _ _ _ _ _ _ (0 : Fin 2) ?_).trans ?_
    · intro hin
      have h2 : (n.val - 0) / (0 + 1) < 100000 := hin.2.2
      omega
    · show (Scalar.sitofp .f32 0#32 : Ideal .f32) = 0
      exact sitofp_zero

/-- The padded graph ids, as a row: node `n`'s below 100000, the word −1 from there on. -/
theorem v35_apply (c : Dev nD) (n : Fin 106496) :
    (V m c main_v35 : S1x106496.Idx → BitVec 32) (ix2 (0 : Fin 1) n)
      = if h : n.val < 100000 then m ((c : Thread nD τ).loc main_arg4) (ix1 ⟨n.val, h⟩) else 4294967295#32 := by
  -- the buffer is the pad of the graph ids, laid as a row, by the word −1
  have e0 : (V m c main_v35 : S1x106496.Idx → BitVec 32)
      = pad S1x106496 ![0, 0] ![0, 6496] ![0, 0]
          (shapeCast S1x100000 (m ((c : Thread nD τ).loc main_arg4)) shapeCasts_S100000_S1x100000)
          (constantI S_ 32 4294967295#32)
          pads_S1x100000_S1x106496_000_064960 h_S_ := by
    dsimp only [Gen.V]
    simp only [Gen.hostOps0, Gen.hostOps0_1, Gen.hostOps0_2, Gen.hostOps0_3, Gen.hostOps0_4, Gen.hostOps0_5, List.flatten_cons, List.flatten_nil, List.append_nil, List.cons_append, List.nil_append]
    after_results_simp
    rfl
  rw [e0]
  by_cases h : n.val < 100000
  · -- column n is one of the row's; entry (0, n) of the row is entry n of the vector
    rw [dif_pos h]
    refine (pad_apply_of_inside _ _ _ _ _ _ _ _ (ix2 (0 : Fin 1) (⟨n.val, h⟩ : Fin 100000)) (fun a => match a with
      | ⟨0, _⟩ => by show (0 : Fin 1).val = 0 + (0 : Fin 1).val * (0 + 1); omega
      | ⟨1, _⟩ => by show n.val = 0 + n.val * (0 + 1); omega)).trans ?_
    exact shapeCast_a_1a_apply _ _ (0 : Fin 1) _
  · -- column n is past the row's last column: the padding word
    rw [dif_neg h]
    refine (pad_apply_of_not_inside _ _ _ _ _ _ _ _ (1 : Fin 2) ?_).trans ?_
    · intro hin
      have h2 : (n.val - 0) / (0 + 1) < 100000 := hin.2.2
      omega
    · rfl

/-- The bias as one row. -/
theorem v30_apply (c : Dev nD) (e : Fin 20) :
    (V m c main_v30 : S1x20.Idx → EReal) (ix2 (0 : Fin 1) e) = m ((c : Thread nD τ).loc main_arg8) (ix1 e) := by
  -- the buffer is the bias laid as a row; entry (0, e) of the row is entry e of the vector
  have e0 : (V m c main_v30 : S1x20.Idx → EReal)
      = shapeCast S1x20 (m ((c : Thread nD τ).loc main_arg8)) shapeCasts_S20_S1x20 := by
    dsimp only [Gen.V]
    simp only [Gen.hostOps0, Gen.hostOps0_1, Gen.hostOps0_2, Gen.hostOps0_3, Gen.hostOps0_4, Gen.hostOps0_5, List.flatten_cons, List.flatten_nil, List.append_nil, List.cons_append, List.nil_append]
    after_results_simp
    rfl
  rw [e0]
  exact shapeCast_a_1a_apply _ _ (0 : Fin 1) e

end Cert.KernelIdeal.Hand

end
-- ==== Proof.Blocks.lean ====
/-
  What each window's block holds at grid point t: rows 8192·t … 8192·t + 8191 of the padded arrays (columns of the
  graph-id row), and the whole of the weights and of the bias row.
-/
import proofs.«425665_j32229434589775_2_alg».proof.Proof.Gen.KernelIdeal.Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Node `k` of block `t` is node `8192·t + k` of the padded arrays. -/
theorem node_lt (t : Fin cfg0.N) (k : Fin 8192) : 8192 * t.val + k.val < 106496 := by
  have h := t.isLt
  have hN : cfg0.N = 13 := N_0
  omega

/-- The index maps over the grid: windows 0 and 1 step along axis 0, window 2 along axis 1, windows 3 and 4 stay. -/
private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
private theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
private theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
private theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
private theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem blk0_apply (c : Dev nD) (t : Fin cfg0.N) (k : Fin 8192) (d : Fin 300) :
    (iblk m c 0 t : Vec Ideal S8192x300 .f32) (ix2 k d)
      = (V m c main_v32 : S106496x300.Idx → EReal) (ix2 ⟨8192 * t.val + k.val, node_lt t k⟩ d) := by
  have hi := idx0 t
  unfold iblk
  rw [View.read_apply]
  show V m c main_v32 _ = V m c main_v32 _
  congr 1
  funext a
  apply Fin.ext
  match a with
  | ⟨0, _⟩ => show win0_0.index t 0 * 8192 + 1 * k.val = 8192 * t.val + k.val; rw [hi.1]; omega
  | ⟨1, _⟩ => show win0_0.index t 1 * 300 + 1 * d.val = d.val; rw [hi.2]; omega

theorem blk1_apply (c : Dev nD) (t : Fin cfg0.N) (k : Fin 8192) :
    (iblk m c 1 t : Vec Ideal S8192x1 .f32) (ix2 k (0 : Fin 1))
      = (V m c main_v33 : S106496x1.Idx → EReal) (ix2 ⟨8192 * t.val + k.val, node_lt t k⟩ (0 : Fin 1)) := by
  have hi := idx1 t
  unfold iblk
  rw [View.read_apply]
  show V m c main_v33 _ = V m c main_v33 _
  congr 1
  funext a
  apply Fin.ext
  match a with
  | ⟨0, _⟩ => show win0_1.index t 0 * 8192 + 1 * k.val = 8192 * t.val + k.val; rw [hi.1]; omega
  | ⟨1, _⟩ => show win0_1.index t 1 * 1 + 1 * 0 = 0; rw [hi.2]

theorem blk2_apply (c : Dev nD) (t : Fin cfg0.N) (k : Fin 8192) :
    (iblk m c 2 t : Vec Ideal S1x8192 .i32) (ix2 (0 : Fin 1) k)
      = (V m c main_v35 : S1x106496.Idx → BitVec 32) (ix2 (0 : Fin 1) ⟨8192 * t.val + k.val, node_lt t k⟩) := by
  have hi := idx2 t
  unfold iblk
  rw [View.read_apply]
  show V m c main_v35 _ = V m c main_v35 _
  congr 1
  funext a
  apply Fin.ext
  match a with
  | ⟨0, _⟩ => show win0_2.index t 0 * 1 + 1 * 0 = 0; rw [hi.1]
  | ⟨1, _⟩ => show win0_2.index t 1 * 8192 + 1 * k.val = 8192 * t.val + k.val; rw [hi.2]; omega

theorem blk3_apply (c : Dev nD) (t : Fin cfg0.N) (d : Fin 300) (e : Fin 20) :
    (iblk m c 3 t : Vec Ideal S300x20 .f32) (ix2 d e) = m ((c : Thread nD τ).loc main_arg7) (ix2 d e) := by
  have hi := idx3 t
  rw [← V_main_arg7 m c]
  unfold iblk
  rw [View.read_apply]
  show V m c main_arg7 _ = V m c main_arg7 _
  congr 1
  funext a
  apply Fin.ext
  match a with
  | ⟨0, _⟩ => show win0_3.index t 0 * 300 + 1 * d.val = d.val; rw [hi.1]; omega
  | ⟨1, _⟩ => show win0_3.index t 1 * 20 + 1 * e.val = e.val; rw [hi.2]; omega

theorem blk4_apply (c : Dev nD) (t : Fin cfg0.N) (e : Fin 20) :
    (iblk m c 4 t : Vec Ideal S1x20 .f32) (ix2 (0 : Fin 1) e) = (V m c main_v30 : S1x20.Idx → EReal) (ix2 (0 : Fin 1) e) := by
  have hi := idx4 t
  unfold iblk
  rw [View.read_apply]
  show V m c main_v30 _ = V m c main_v30 _
  congr 1
  funext a
  apply Fin.ext
  match a with
  | ⟨0, _⟩ => show win0_4.index t 0 * 1 + 1 * 0 = 0; rw [hi.1]
  | ⟨1, _⟩ => show win0_4.index t 1 * 20 + 1 * e.val = e.val; rw [hi.2]; omega

end Cert.KernelIdeal.Hand

end
-- ==== Proof.Spec.lean ====
/-
  What the two programs compute, as one function of five arrays.

  A node n has a feature row: its summed incoming messages Sm[n, ·] divided by max(Ct[n], 1), where Ct[n] counts its
  incoming edges (`mean`). A graph g pools the rows of the nodes whose graph id is g (`pooled`): ids outside [0, 512)
  belong to no graph. The output row of graph g is relu(pooled g) · W + b (`Out`).
  All arithmetic is on the extended reals; the literal 1.0 stays the bit pattern both programs print.
-/
import Idealize.ShloMosaic.PureOps.Ideal
import Idealize.ShloMosaic.Lib.ValueIdx

noncomputable section

namespace Cert.Readout

open Idealize.ShloMosaic Idealize.ShloMosaic.ValueIdx

/-- Node `n`'s mean message, feature `d`: the summed messages over the in-degree, the in-degree raised to at least one. -/
def mean (Sm : (⟨2, ![100000, 300]⟩ : Shape).Idx → EReal) (Ct : (⟨1, ![100000]⟩ : Shape).Idx → EReal)
    (n : Fin 100000) (d : Fin 300) : EReal :=
  Ideal.div (Sm (ix2 n d)) (max (Ct (ix1 n)) (Ideal.ofBits .f32 0x3F800000#32))

/-- Graph `g`'s pooled feature `d`: the sum of the mean messages of the nodes whose graph id, read signed, is `g`. -/
def pooled (Sm : (⟨2, ![100000, 300]⟩ : Shape).Idx → EReal) (Ct : (⟨1, ![100000]⟩ : Shape).Idx → EReal)
    (gid : (⟨1, ![100000]⟩ : Shape).Idx → BitVec 32) (g : Fin 512) (d : Fin 300) : EReal :=
  ∑ n : Fin 100000, if (gid (ix1 n)).toInt = (g.val : ℤ) then mean Sm Ct n d else 0

/-- The output: per graph, the rectified pooled features times the weights, plus the bias. -/
def Out (Sm : (⟨2, ![100000, 300]⟩ : Shape).Idx → EReal) (Ct : (⟨1, ![100000]⟩ : Shape).Idx → EReal)
    (gid : (⟨1, ![100000]⟩ : Shape).Idx → BitVec 32) (W : (⟨2, ![300, 20]⟩ : Shape).Idx → EReal)
    (b : (⟨1, ![20]⟩ : Shape).Idx → EReal) : (⟨2, ![512, 20]⟩ : Shape).Idx → EReal :=
  fun i => (∑ d : Fin 300, max (pooled Sm Ct gid ⟨(i 0).val, idx2_lt0 i⟩ d) 0 * W (ix2 d ⟨(i 1).val, idx2_lt1 i⟩))
    + b (ix1 ⟨(i 1).val, idx2_lt1 i⟩)

end Cert.Readout

end
-- ==== Proof.Sums.lean ====
/-
  Three facts about sums on the extended reals: a sum over 13 · 8192 positions is the sum over 13 blocks of 8192;
  a sum over the 106496 padded positions whose terms vanish from position 100000 on is the sum over the first
  100000; a 0/1 weight times a value is the value where the weight is 1 and zero elsewhere.
-/
import Mathlib.Data.EReal.Basic
import Mathlib.Algebra.BigOperators.Fin
import Mathlib.Logic.Equiv.Fin.Basic

open scoped BigOperators

namespace Cert.Readout

/-- Thirteen blocks of 8192 make up the padded range. -/
theorem sum_blocks (f : Fin 106496 → EReal) :
    ∑ s : Fin 13, ∑ k : Fin 8192, f ⟨8192 * s.val + k.val, by have := s.isLt; have := k.isLt; omega⟩ = ∑ p, f p := by
  have h := Equiv.sum_comp (finProdFinEquiv (m := 13) (n := 8192)) f
  rw [← h, Fintype.sum_prod_type]
  refine Finset.sum_congr rfl fun s _ => Finset.sum_congr rfl fun k _ => ?_
  refine congrArg f (Fin.ext ?_)
  show 8192 * s.val + k.val = k.val + 8192 * s.val
  omega

/-- Terms that vanish on the padding drop out. -/
theorem sum_drop_pad (f : Fin 106496 → EReal) (hpad : ∀ p : Fin 106496, 100000 ≤ p.val → f p = 0) :
    ∑ p, f p = ∑ n : Fin 100000, f ⟨n.val, by have := n.isLt; omega⟩ := by
  have h := Fin.sum_univ_add (a := 100000) (b := 6496) f
  have hz : ∀ i : Fin 6496, f (Fin.natAdd 100000 i) = 0 := fun i => hpad _ (by show 100000 ≤ 100000 + i.val; omega)
  rw [h, Finset.sum_eq_zero (fun i _ => hz i), add_zero]
  rfl

/-- A 0/1 weight selects. -/
theorem ite_one_zero_mul (c : Prop) [Decidable c] (x : EReal) : (if c then (1 : EReal) else 0) * x = if c then x else 0 := by
  by_cases h : c
  · rw [if_pos h, if_pos h, one_mul]
  · rw [if_neg h, if_neg h, zero_mul]

end Cert.Readout
-- ==== Proof.KernelValue.lean ====
/-
  The kernel's result array is `Out` of its own summed messages and in-degrees.

  After grid point n the accumulator holds, at (g, d), the sum over the blocks 0 … n of the block's nodes'
  contributions [gid = g] · sm / max(cnt, 1) (a fold whose every step adds that point's block). At the last point the
  body applies the rectifier, the weights and the bias to the accumulator it has just updated, and that block — the
  whole result array — is the only one written back. The 13 blocks of 8192 are the 106496 padded positions; the padded
  positions carry graph id −1, which is no graph's, so they drop out and the first 100000 remain.
-/
import proofs.«425665_j32229434589775_2_alg».proof.Proof.Gen.KernelIdeal.Value
import proofs.«425665_j32229434589775_2_alg».proof.Proof.Pieces
import proofs.«425665_j32229434589775_2_alg».proof.Proof.Payload
import proofs.«425665_j32229434589775_2_alg».proof.Proof.HostIn
import proofs.«425665_j32229434589775_2_alg».proof.Proof.Blocks
import proofs.«425665_j32229434589775_2_alg».proof.Proof.Spec
import proofs.«425665_j32229434589775_2_alg».proof.Proof.Sums

noncomputable section

namespace Cert.KernelIdeal.Hand

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Readout

variable (m : (ℓ : Loc nD τ sig) → Buf (Elt Ideal) ℓ) (ρ : Dev nD → PrngReg)

/-- Padded position `p`'s contribution to graph `g`'s feature `d`. -/
def term (c : Dev nD) (g : Fin 512) (d : Fin 300) (p : Fin 106496) : EReal :=
  hot g ((V m c main_v35 : S1x106496.Idx → BitVec 32) (ix2 (0 : Fin 1) p))
    * Ideal.div ((V m c main_v32 : S106496x300.Idx → EReal) (ix2 p d))
        (max ((V m c main_v33 : S106496x1.Idx → EReal) (ix2 p (0 : Fin 1))) (Ideal.ofBits .f32 0x3F800000#32))

/-- One update at point `t` adds block `t`'s contributions. -/
theorem update_apply (c : Dev nD) (t : Fin cfg0.N) (acc : Vec Ideal S512x300 .f32) (g : Fin 512) (d : Fin 300) :
    k0_pay2 (iblk m c 1 t) (iblk m c 0 t) (iblk m c 2 t) acc (ix2 g d)
      = acc (ix2 g d) + ∑ k : Fin 8192, term m c g d ⟨8192 * t.val + k.val, node_lt t k⟩ := by
  refine (pay2_apply (iblk m c 1 t) (iblk m c 0 t) (iblk m c 2 t) acc g d).trans ?_
  refine congrArg (acc (ix2 g d) + ·) (Finset.sum_congr rfl fun k _ => ?_)
  unfold term
  rw [blk0_apply m c t k d, blk1_apply m c t k, blk2_apply m c t k]

/-- Point `n`'s addend to the accumulator (zero past the grid, where it is never used). -/
def addend (c : Dev nD) (n : ℕ) (j : S512x300.Idx) : EReal :=
  if h : n < cfg0.N then
    ∑ k : Fin 8192, term m c ⟨(j 0).val, idx2_lt0 j⟩ ⟨(j 1).val, idx2_lt1 j⟩ ⟨8192 * n + k.val, node_lt ⟨n, h⟩ k⟩
  else 0

theorem addend_apply (c : Dev nD) (t : Fin cfg0.N) (g : Fin 512) (d : Fin 300) :
    addend m c t.val (ix2 g d) = ∑ k : Fin 8192, term m c g d ⟨8192 * t.val + k.val, node_lt t k⟩ := by
  unfold addend
  rw [dif_pos t.isLt]

/-- The accumulator after point `j ≤ 11`: the blocks 0 … j summed (the first point clears it; every later point adds). -/
theorem scratch_at (c : Dev nD) (j : ℕ) (hj : j ≤ 11) (h : 0 + j < cfg0.N) (i : S512x300.Idx) :
    Pipeline.accAt (fun n h => scAt0_0 m c n h (VS0_0.read (Elt Ideal) VS0_0.junk)) (scAt0_0 m c) 0 j h i
      = 0 + ∑ s ∈ Finset.range (j + 1), addend m c (0 + s) i := by
  refine Pipeline.accAt_add_apply (fun n h => scAt0_0 m c n h (VS0_0.read (Elt Ideal) VS0_0.junk)) (scAt0_0 m c)
    (fun _ => (0 : EReal)) (addend m c) 0 11 ?_ ?_ j hj h i
  · intro h0 i
    obtain ⟨g, d, rfl⟩ : ∃ (g : Fin 512) (d : Fin 300), i = ix2 g d := ⟨i 0, i 1, eq_ix2 i⟩
    unfold scAt0_0
    rw [dif_pos (by decide : 0 % 13 = 0), dif_neg (by decide : ¬0 % 13 = 12), scratch_A]
    refine (update_apply m c ⟨0, h0⟩ (k0_pay1 (F := Ideal)) g d).trans ?_
    rw [pay1_apply, addend_apply m c ⟨0, h0⟩ g d]
  · intro n hn acc i h1 h2
    obtain ⟨g, d, rfl⟩ : ∃ (g : Fin 512) (d : Fin 300), i = ix2 g d := ⟨i 0, i 1, eq_ix2 i⟩
    unfold scAt0_0
    rw [dif_neg (by omega : ¬n % 13 = 0), dif_neg (by omega : ¬n % 13 = 12), scratch_B]
    refine (update_apply m c ⟨n, hn⟩ acc g d).trans ?_
    rw [addend_apply m c ⟨n, hn⟩ g d]

theorem h11 : 11 < cfg0.N := by rw [show cfg0.N = 13 from N_0]; decide

/-- What the accumulator holds when the last point starts. -/
theorem scratch_11 (c : Dev nD) (g : Fin 512) (d : Fin 300) :
    (outsAt0 m c 11 h11).2 (ix2 g d) = ∑ s ∈ Finset.range 12, addend m c s (ix2 g d) := by
  refine (congrFun (soutsAt0_0_sweep m c 11 h11) (ix2 g d)).trans ?_
  refine (scratch_at m c 11 le_rfl (by simpa using h11) (ix2 g d)).trans ?_
  rw [zero_add]
  refine Finset.sum_congr rfl fun s _ => ?_
  rw [Nat.zero_add]

/-- The result: the final stage at the last point, of the accumulator that point has just updated. -/
def result (c : Dev nD) : Vec Ideal S512x20 .f32 :=
  k0_pay3 (k0_pay2 (iblk m c 1 t0_12) (iblk m c 0 t0_12) (iblk m c 2 t0_12) (outsAt0 m c 11 h11).2)
    (iblk m c 3 t0_12) (iblk m c 4 t0_12)

/-- The accumulator the last point ends with, at `(g, d)`: all padded positions' contributions. -/
theorem pooled_pad (c : Dev nD) (g : Fin 512) (d : Fin 300) :
    k0_pay2 (iblk m c 1 t0_12) (iblk m c 0 t0_12) (iblk m c 2 t0_12) (outsAt0 m c 11 h11).2 (ix2 g d)
      = ∑ p : Fin 106496, term m c g d p := by
  refine (update_apply m c t0_12 _ g d).trans ?_
  rw [scratch_11, ← addend_apply m c t0_12 g d]
  show _ + addend m c 12 (ix2 g d) = _
  rw [← Finset.sum_range_succ (fun s => addend m c s (ix2 g d)) 12, Finset.sum_range]
  rw [← sum_blocks (term m c g d)]
  refine Finset.sum_congr rfl fun s _ => ?_
  have hs : s.val < cfg0.N := by rw [show cfg0.N = 13 from N_0]; exact s.isLt
  exact addend_apply m c ⟨s.val, hs⟩ g d

/-- A padded position past the nodes contributes nothing: its graph id is −1. -/
theorem term_pad (c : Dev nD) (g : Fin 512) (d : Fin 300) (p : Fin 106496) (hp : 100000 ≤ p.val) : term m c g d p = 0 := by
  unfold term
  rw [v35_apply, dif_neg (by omega)]
  have : hot g 4294967295#32 = 0 := by
    unfold hot
    rw [if_neg]
    have : (4294967295#32 : BitVec 32).toInt = -1 := by decide
    rw [this]
    omega
  rw [this, zero_mul]

/-- A node's position contributes its mean message when its graph id is `g`. -/
theorem term_node (c : Dev nD) (g : Fin 512) (d : Fin 300) (n : Fin 100000) :
    term m c g d ⟨n.val, by have := n.isLt; omega⟩
      = if (m ((c : Thread nD τ).loc main_arg4) (ix1 n)).toInt = (g.val : ℤ) then mean (SmK m c) (CtK m c) n d else 0 := by
  unfold term
  rw [v35_apply, v32_apply, v33_apply, dif_pos n.isLt, dif_pos n.isLt, dif_pos n.isLt]
  unfold hot
  exact ite_one_zero_mul _ _

/-- So the accumulator the last point ends with is the pooled features. -/
theorem pooled_eq (c : Dev nD) (g : Fin 512) (d : Fin 300) :
    k0_pay2 (iblk m c 1 t0_12) (iblk m c 0 t0_12) (iblk m c 2 t0_12) (outsAt0 m c 11 h11).2 (ix2 g d)
      = pooled (SmK m c) (CtK m c) (m ((c : Thread nD τ).loc main_arg4)) g d := by
  rw [pooled_pad, sum_drop_pad (term m c g d) (fun p hp => term_pad m c g d p hp)]
  unfold pooled
  exact Finset.sum_congr rfl fun n _ => term_node m c g d n

/-- THE RESULT IS `Out`. -/
theorem result_eq (c : Dev nD) :
    result m c = Out (SmK m c) (CtK m c) (m ((c : Thread nD τ).loc main_arg4)) (m ((c : Thread nD τ).loc main_arg7))
      (m ((c : Thread nD τ).loc main_arg8)) := by
  funext i
  obtain ⟨g, e, rfl⟩ : ∃ (g : Fin 512) (e : Fin 20), i = ix2 g e := ⟨i 0, i 1, eq_ix2 i⟩
  unfold result Out
  refine (pay3_apply _ (iblk m c 3 t0_12) (iblk m c 4 t0_12) g e).trans ?_
  rw [blk4_apply m c t0_12 e, v30_apply]
  refine congrArg (· + m ((c : Thread nD τ).loc main_arg8) (ix1 e)) (Finset.sum_congr rfl fun d _ => ?_)
  rw [pooled_eq, blk3_apply m c t0_12 d e]

end Cert.KernelIdeal.Hand

end
-- ==== Proof.KernelRun.lean ====
/-
  The kernel's run ends with the result array at `Out`.
  Only the last grid point writes the output block back, and that block is the whole [512, 20] array: so the array ends
  holding what the body stored there at that point.
-/
import proofs.«425665_j32229434589775_2_alg».proof.Proof.KernelValue

noncomputable section

namespace Cert.KernelIdeal.Hand

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Readout

variable (m : (ℓ : Loc nD τ sig) → Buf (Elt Ideal) ℓ) (ρ : Dev nD → PrngReg)

/-- The output block sits at the array's origin. -/
theorem origin5 : (fun a => win0_5.index t0_12 a * main_v36.ty.shape.size a) = fun _ => 0 :=
  funext fun a => by fin_cases a <;> decide +kernel

/-- The one write-back, at the last point, writes the result: the block at the origin of the [512, 20] array is the array. -/
theorem flushed_eq (c : Dev nD) (t : Fin cfg0.N) (hf : (cfg0.win 5).flush t = true) :
    (dats m 0 c).flushed 5 t = ((cfg0.win 5).blk t).view.read (Elt Ideal) (result m c) := by
  have hN : cfg0.N = 13 := N_0
  have h12 : t.val = 12 := by have := (flush0_5 t).mp hf; have := t.isLt; omega
  obtain rfl : t = t0_12 := Fin.ext h12
  rw [flushed5_C m c t0_12 (by decide) (by decide), out_C]
  exact (Memref.read_access_unit_zero (Elt Ideal) main_v36 origin5 (fun a => by rw [congrFun origin5 a]; simp) (result m c)).symm

/-- So the result array ends at the result (the last point's block covers it). -/
theorem final5 (c : Dev nD) : (dats m 0 c).arrAt 5 cfg0.N = result m c :=
  (dats m 0 c).arrAt_eq_of_cover 5 (result m c) (flushed_eq m c) fun i =>
    ⟨t0_12, (flush0_5 t0_12).mpr rfl, by
      show i ∈ ((View.whole main_v36).slice (win0_5.rect t0_12)).set
      rw [View.set_slice_whole, Rect.mem_set_unit]
      intro a
      have h0 : (i 0 : Nat) < 512 := (i 0).isLt
      have h1 : (i 1 : Nat) < 20 := (i 1).isLt
      match a with
      | ⟨0, _⟩ =>
        show win0_5.index t0_12 0 * win0_5.size 0 ≤ (i 0 : Nat) ∧ (i 0 : Nat) < win0_5.index t0_12 0 * win0_5.size 0 + win0_5.xsize (grid0.coords t0_12) 0
        rw [show win0_5.index t0_12 0 * win0_5.size 0 = 0 from by decide +kernel, show win0_5.xsize (grid0.coords t0_12) 0 = 512 from by decide +kernel]
        omega
      | ⟨1, _⟩ =>
        show win0_5.index t0_12 1 * win0_5.size 1 ≤ (i 1 : Nat) ∧ (i 1 : Nat) < win0_5.index t0_12 1 * win0_5.size 1 + win0_5.xsize (grid0.coords t0_12) 1
        rw [show win0_5.index t0_12 1 * win0_5.size 1 = 0 from by decide +kernel, show win0_5.xsize (grid0.coords t0_12) 1 = 20 from by decide +kernel]
        omega⟩

/-- THE KERNEL'S RUN: the result array at `Out` of the host stretch's summed messages and in-degrees, the arguments unchanged. -/
theorem run : θ_run defs (onTc (τ := τ) (main (F := Ideal))) ⟨m, fun _ => 0, ρ⟩ fun r => ∀ c : Dev nD,
      r.2.mem ((c : Thread nD τ).loc main_v36)
        = Out (SmK m c) (CtK m c) (m ((c : Thread nD τ).loc main_arg4)) (m ((c : Thread nD τ).loc main_arg7))
            (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1.trans (final5 m c)).trans (result_eq m c), (h c).2⟩)
    (run_blocks m ρ)

end Cert.KernelIdeal.Hand

end
-- ==== Proof.Scatter.lean ====
/-
  A row scatter-add read at an index. The scatter has one index per update row: update row n, whole, is added to
  operand row idx[n] (read signed), and dropped when idx[n] is not a row of the operand. So entry (g, e) of the result
  is the operand's entry plus the sum of the entries (n, e) of the update rows n with idx[n] = g.
-/
import Idealize.ShloMosaic.PureOps.Ideal
import Idealize.ShloMosaic.Lib.ValueIdx

noncomputable section

namespace Cert.Readout

open Idealize.ShloMosaic Idealize.ShloMosaic.ValueIdx

/-- The dimension numbers of a row scatter into `[R, D]` from updates `[N, D]` at indices `[N, 1]`. -/
abbrev rowScatterDims (R D N : Nat)
    (wf : ScatterDims.WF ⟨2, ![R, D]⟩ ⟨2, ![N, 1]⟩ ⟨2, ![N, D]⟩ [1] [0] [0] 1) :
    ScatterDims ⟨2, ![R, D]⟩ ⟨2, ![N, 1]⟩ ⟨2, ![N, D]⟩ where
  updateWindowDims := [1]
  insertedWindowDims := [0]
  scatterDimsToOperandDims := [0]
  indexVectorDim := 1
  wf := wf

/-! ### The scatter's coordinates at update index `(n, e')`

The one scattered operand axis is axis 0, the one window axis of the updates is axis 1 and goes to operand axis 1. So the
start is the index of row `n` (read signed) on axis 0 and `0` on axis 1; the window coordinate is `0` on axis 0 and
`e'` on axis 1. -/

section Coordinates
variable {R D N w : Nat} (wf : ScatterDims.WF ⟨2, ![R, D]⟩ ⟨2, ![N, 1]⟩ ⟨2, ![N, D]⟩ [1] [0] [0] 1)

/-- On operand axis 0 the start is the index of update row `n`, read signed. -/
private theorem start_zero (idx : IVec ⟨2, ![N, 1]⟩ w) (n : Fin N) (e' : Fin D) :
    (rowScatterDims R D N wf).start (ix2 n e') idx 0 = (idx (ix2 n (0 : Fin 1))).toInt := by
  unfold ScatterDims.start
  rw [dif_pos (show (0 : Fin 2) ∈ (rowScatterDims R D N wf).scatterDimsToOperandDims from List.mem_singleton.mpr rfl)]
  have hsi : (rowScatterDims R D N wf).siIdx (ix2 n e') ⟨List.idxOf (0 : Fin 2) (rowScatterDims R D N wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- Operand axis 1 is not a scattered axis: the start there is `0`. -/
private theorem start_one (idx : IVec ⟨2, ![N, 1]⟩ w) (n : Fin N) (e' : Fin D) :
    (rowScatterDims R D N wf).start (ix2 n e') idx 1 = 0 := by
  unfold ScatterDims.start
  rw [dif_neg (show ¬ (1 : Fin 2) ∈ ([0] : List (Fin 2)) by decide)]

/-- Operand axis 0 is an inserted axis: the window coordinate there is `0`. -/
private theorem window_zero (n : Fin N) (e' : Fin D) :
    (rowScatterDims R D N wf).window (ix2 n e') 0 = 0 := by
  unfold ScatterDims.window
  have h : (0 : Fin 2) ∉ (rowScatterDims R D N wf).sKept :=
    show ¬ (0 : Fin 2) ∈ (List.finRange 2).filter (fun a => a ∉ ([0] : List (Fin 2))) by decide
  rw [dif_neg h]

/-- Operand axis 1 is the one kept axis: the window coordinate there is the update's column. -/
private theorem window_one (n : Fin N) (e' : Fin D) :
    (rowScatterDims R D N wf).window (ix2 n e') 1 = e'.val := by
  unfold ScatterDims.window
  have h : (1 : Fin 2) ∈ (rowScatterDims R D N wf).sKept :=
    show (1 : Fin 2) ∈ (List.finRange 2).filter (fun a => a ∉ ([0] : List (Fin 2))) by decide
  rw [dif_pos h]
  rfl

/-- Update entry `(n, e')` lands on operand entry `(g, e)` exactly when row `n`'s index, read signed, is `g` and the
    columns agree: the landing point is `(idx[n] + 0, 0 + e')`, inside the operand iff `0 ≤ idx[n] < R`. -/
private theorem resultIdx_iff (idx : IVec ⟨2, ![N, 1]⟩ w) (n : Fin N) (e' : Fin D) (g : Fin R) (e : Fin D) :
    (rowScatterDims R D N wf).resultIdx? (ix2 n e') idx = some (ix2 g e)
      ↔ (idx (ix2 n (0 : Fin 1))).toInt = (g.val : ℤ) ∧ e' = e := by
  have hs0 := start_zero wf idx n e'
  have hs1 := start_one wf idx n e'
  have hw0 := window_zero wf n e'
  have hw1 := window_one wf n e'
  unfold ScatterDims.resultIdx?
  split
  · rename_i h
    constructor
    · intro heq
      have hf := Option.some.inj heq
      have h0 := congrArg Fin.val (congrFun hf 0)
      have h1 := congrArg Fin.val (congrFun hf 1)
      have hh0 := (h 0).1
      have h0' : ((rowScatterDims R D N wf).start (ix2 n e') idx 0
          + ((rowScatterDims R D N wf).window (ix2 n e') 0 : ℕ)).toNat = g.val := h0
      have h1' : ((rowScatterDims R D N wf).start (ix2 n e') idx 1
          + ((rowScatterDims R D N wf).window (ix2 n e') 1 : ℕ)).toNat = e.val := h1
      rw [hs0, hw0] at h0' hh0
      rw [hs1, hw1] at h1'
      refine ⟨by omega, Fin.ext (by omega)⟩
    · rintro ⟨hidx, rfl⟩
      refine congrArg some (funext fun a => Fin.ext ?_)
      match a with
      | ⟨0, _⟩ =>
        show ((rowScatterDims R D N wf).start (ix2 n e') idx 0
          + ((rowScatterDims R D N wf).window (ix2 n e') 0 : ℕ)).toNat = g.val
        rw [hs0, hw0, hidx]; omega
      | ⟨1, _⟩ =>
        show ((rowScatterDims R D N wf).start (ix2 n e') idx 1
          + ((rowScatterDims R D N wf).window (ix2 n e') 1 : ℕ)).toNat = e'.val
        rw [hs1, hw1]; omega
  · rename_i h
    constructor
    · intro heq; exact absurd heq (by simp)
    · rintro ⟨hidx, rfl⟩
      refine absurd (fun a => ?_) h
      match a with
      | ⟨0, _⟩ =>
        show 0 ≤ (rowScatterDims R D N wf).start (ix2 n e') idx 0 + ((rowScatterDims R D N wf).window (ix2 n e') 0 : ℕ) ∧
          (rowScatterDims R D N wf).start (ix2 n e') idx 0 + ((rowScatterDims R D N wf).window (ix2 n e') 0 : ℕ) < (R : ℤ)
        rw [hs0, hw0, hidx]; have := g.isLt; omega
      | ⟨1, _⟩ =>
        show 0 ≤ (rowScatterDims R D N wf).start (ix2 n e') idx 1 + ((rowScatterDims R D N wf).window (ix2 n e') 1 : ℕ) ∧
          (rowScatterDims R D N wf).start (ix2 n e') idx 1 + ((rowScatterDims R D N wf).window (ix2 n e') 1 : ℕ) < (D : ℤ)
        rw [hs1, hw1]; have := e'.isLt; omega

end Coordinates

/-- THE ROW SCATTER-ADD AT `(g, e)`: the operand there plus the update rows whose index is `g`, at column `e`. -/
theorem rowScatterAdd_apply {R D N w : Nat}
    (wf : ScatterDims.WF ⟨2, ![R, D]⟩ ⟨2, ![N, 1]⟩ ⟨2, ![N, D]⟩ [1] [0] [0] 1)
    (x : (⟨2, ![R, D]⟩ : Shape).Idx → EReal) (idx : IVec ⟨2, ![N, 1]⟩ w) (upd : (⟨2, ![N, D]⟩ : Shape).Idx → EReal)
    (g : Fin R) (e : Fin D) :
    Ideal.hostScatterAdd (rowScatterDims R D N wf) x idx upd (ix2 g e)
      = x (ix2 g e) + ∑ n : Fin N, if (idx (ix2 n (0 : Fin 1))).toInt = (g.val : ℤ) then upd (ix2 n e) else 0 := by
  -- the scatter-add at an entry: the operand there plus the updates landing on it
  show x (ix2 g e) + ∑ j ∈ Finset.univ.filter
      (fun j => (rowScatterDims R D N wf).resultIdx? j idx = some (ix2 g e)), upd j = _
  refine congrArg (x (ix2 g e) + ·) ?_
  -- the sum over the landing updates, as a double sum over update rows and columns
  rw [Finset.sum_filter, sum_idx2]
  refine Finset.sum_congr rfl fun n _ => ?_
  -- in row `n` only column `e` can land on `(g, e)`, and does iff the row's index is `g`
  rw [Finset.sum_eq_single e]
  · by_cases hidx : (idx (ix2 n (0 : Fin 1))).toInt = (g.val : ℤ)
    · rw [if_pos hidx, if_pos ((resultIdx_iff wf idx n e g e).2 ⟨hidx, rfl⟩)]
    · rw [if_neg hidx, if_neg (fun h => hidx ((resultIdx_iff wf idx n e g e).1 h).1)]
  · intro e' _ hne
    exact if_neg (fun h => hne ((resultIdx_iff wf idx n e' g e).1 h).2)
  · intro h; exact absurd (Finset.mem_univ e) h

end Cert.Readout

end
-- ==== Proof.Ref.lean ====
/-
  The reference's result is `Out` of its own summed messages and in-degrees.
  Its last scatter-add pools, for graph g, the mean messages of the nodes whose id is g (a row scatter-add read at an
  index); the rectifier, the product with the weights and the bias follow entry by entry.
-/
import proofs.«425665_j32229434589775_2_alg».proof.Proof.Gen.ReferenceIdeal.Read
import proofs.«425665_j32229434589775_2_alg».proof.Proof.Spec
import proofs.«425665_j32229434589775_2_alg».proof.Proof.Scatter

noncomputable section

namespace Cert.ReferenceIdeal.Hand

open Cert.ReferenceIdeal Cert.ReferenceIdeal.Gen Cert.ReferenceIdeal.Read Idealize.ShloMosaic Idealize.ShloMosaic.TcCoe
open Idealize.ShloMosaic.ValueIdx Cert.Readout

variable (x0 : (⟨S100000, .i32⟩ : BufTy).Contents (Elt Ideal)) (x1 x2 x3 : (⟨S500000, .i32⟩ : BufTy).Contents (Elt Ideal))
  (x4 : (⟨S100000, .i32⟩ : BufTy).Contents (Elt Ideal)) (x5 : (⟨S50000x300, .f32⟩ : BufTy).Contents (Elt Ideal))
  (x6 : (⟨S1000000x1, .f32⟩ : BufTy).Contents (Elt Ideal)) (x7 : (⟨S300x20, .f32⟩ : BufTy).Contents (Elt Ideal))
  (x8 : (⟨S20, .f32⟩ : BufTy).Contents (Elt Ideal))

/-- The divisor at node `n`, any feature: the in-degree raised to at least one. -/
theorem denom_apply (n : Fin 100000) (d : Fin 300) :
    val_main_v33 (F := Ideal) x3 (ix2 n d)
      = max (val_main_v29 (F := Ideal) x3 (ix1 n)) (Ideal.ofBits .f32 0x3F800000#32) := by
  rw [val_main_v33_apply, val_main_v32_apply, val_main_v31_apply, val_main_v30_apply, val_main_cst_7_apply]
  have e : idx_main_v32 (idx_main_v33 (ix2 n d)) = ix1 n := funext fun a => by
    match a with
    | ⟨0, _⟩ => rfl
  rw [e]
  rfl

/-- The mean message of node `n`, feature `d`. -/
theorem mean_apply (n : Fin 100000) (d : Fin 300) :
    val_main_v34 (F := Ideal) x0 x1 x2 x3 x5 x6 (ix2 n d)
      = mean (val_main_v25 (F := Ideal) x0 x1 x2 x3 x5 x6) (val_main_v29 (F := Ideal) x3) n d := by
  rw [val_main_v34_apply, denom_apply]
  rfl

/-- The pooled feature of graph `g`: the scatter-add lands node `n`'s row on the row its graph id names. -/
theorem pooled_apply (g : Fin 512) (d : Fin 300) :
    val_main_v37 (F := Ideal) x0 x1 x2 x3 x4 x5 x6 (ix2 g d)
      = pooled (val_main_v25 (F := Ideal) x0 x1 x2 x3 x5 x6) (val_main_v29 (F := Ideal) x3) x4 g d := by
  unfold val_main_v37
  show Ideal.hostScatterAdd (rowScatterDims 512 300 100000 Cert.ReferenceIdeal.Gen.scatter_S512x300_S100000x1_S100000x300_1_0_0_1_wf)
    (val_main_v35 (F := Ideal)) (val_main_v36 (F := Ideal) x4) (val_main_v34 (F := Ideal) x0 x1 x2 x3 x5 x6) (ix2 g d) = _
  rw [rowScatterAdd_apply, val_main_v35_apply, val_main_cst_8_apply]
  show Ideal.ofBits .f32 0x00000000#32 + _ = _
  rw [Ideal.ofBits_zero_f32, zero_add]
  unfold pooled
  refine Finset.sum_congr rfl fun n _ => ?_
  rw [val_main_v36_apply, mean_apply]
  have e : idx_main_v36 (ix2 n (0 : Fin 1)) = ix1 n := funext fun a => by
    match a with
    | ⟨0, _⟩ => rfl
  rw [e]

/-- THE REFERENCE'S RESULT. -/
theorem ref_out :
    val_main_v42 (F := Ideal) x0 x1 x2 x3 x4 x5 x6 x7 x8
      = Out (val_main_v25 (F := Ideal) x0 x1 x2 x3 x5 x6) (val_main_v29 (F := Ideal) x3) x4 x7 x8 := by
  funext i
  obtain ⟨g, e, rfl⟩ : ∃ (g : Fin 512) (e : Fin 20), i = ix2 g e := ⟨i 0, i 1, eq_ix2 i⟩
  rw [val_main_v42_apply, val_main_v39_apply, val_main_v41_apply, val_main_v40_apply]
  unfold Out
  show (∑ k : Fin 300, _) + _ = (∑ d : Fin 300, _) + _
  refine congrArg₂ (fun a b : EReal => a + b) (Finset.sum_congr rfl fun k _ => ?_) ?_
  · have el : lidx_main_v39 (ix2 g e) k = ix2 g k := funext fun a => by
      match a with
      | ⟨0, _⟩ => rfl
      | ⟨1, _⟩ => rfl
    have er : ridx_main_v39 (ix2 g e) k = ix2 k e := funext fun a => by
      match a with
      | ⟨0, _⟩ => rfl
      | ⟨1, _⟩ => rfl
    rw [el, er, val_main_v38_apply, pooled_apply, val_main_call0_v0_apply, val_main_call0_cst_apply]
    show max _ (Ideal.ofBits .f32 0x00000000#32) * _ = _
    rw [Ideal.ofBits_zero_f32]
  · have e4 : idx_main_v40 (idx_main_v41 (ix2 g e)) = ix1 e := funext fun a => by
      match a with
      | ⟨0, _⟩ => rfl
    rw [e4]

end Cert.ReferenceIdeal.Hand

end
-- ==== Proof.Gather.lean ====
/-
  Row gathers read at an index, and two of them composed. `table[idx]` takes row clamp(idx[r]) of the table, the
  index read signed and clamped into the table's rows. Taking rows of a table by a list, and then rows of the result
  by a second list, is taking rows of the table by the first list read through the second.
-/
import Idealize.ShloMosaic.PureOps.Ideal
import Idealize.ShloMosaic.Lib.ValueIdx
import Idealize.ShloMosaic.Lib.StableHlo.Predicate

noncomputable section

namespace Cert.Readout

open Idealize.ShloMosaic Idealize.ShloMosaic.ValueIdx

/-- The dimension numbers of `table[idx]` for a table `[N, D]`, indices `[R, 1]`, result `[R, D]`. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The dimension numbers of `vec[idx]` for a vector `[N]`, indices `[R, 1]`, result `[R]`. -/
abbrev vecTakeDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The row an index word names in a table of `N` rows: the word read signed, clamped into `[0, N − 1]`. -/
def clampRow (N : Nat) (hN : 0 < N) {w : Nat} (b : BitVec w) : Fin N := ⟨min b.toInt.toNat (N - 1), by omega⟩

/-- THE ROW GATHER AT `(r, d)`: the table at the clamped row `idx[r]`, column `d`. -/
theorem rowGather_apply {α : Type} {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowTakeDims N D R wf) x idx (ix2 r d) = x (ix2 (clampRow N hN (idx (ix2 r (0 : Fin 1)))) d) := by
  unfold Host.gather
  congr 1
  funext a
  refine Fin.ext ?_
  match a with
  | ⟨0, _⟩ =>
    -- the row axis: collapsed and start-indexed, so the coordinate is the clamped start alone
    show (rowTakeDims N D R wf).start (ix2 r d) idx 0 + (rowTakeDims N D R wf).batchCoord (ix2 r d) 0
      + (rowTakeDims N D R wf).offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at [r, 0]
    have hsi : (rowTakeDims N D R wf).siIdx (ix2 r d) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the column axis: not start-indexed (start 0), the one offset axis, so the coordinate is d
    show (rowTakeDims N D R wf).start (ix2 r d) idx 1 + (rowTakeDims N D R wf).batchCoord (ix2 r d) 1
      + (rowTakeDims N D R wf).offCoord (ix2 r d) 1 = _
    rw [GatherDims.batchCoord_eq_zero _ _ _ List.not_mem_nil]
    have hs : (rowTakeDims N D R wf).start (ix2 r d) idx 1 = 0 := by
      unfold GatherDims.start
      rw [dif_neg (fun h => Nat.one_ne_zero (congrArg Fin.val (List.mem_singleton.mp h)))]
    rw [hs]
    simp only [Nat.add_zero, Nat.zero_add]
    have hk : (1 : Fin 2) ∈ (rowTakeDims N D R wf).sKept := by
      rw [GatherDims.mem_sKept]
      exact ⟨fun h => Nat.one_ne_zero (congrArg Fin.val (List.mem_singleton.mp h)), List.not_mem_nil⟩
    unfold GatherDims.offCoord
    rw [dif_pos hk]
    rfl

/-- THE VECTOR GATHER AT `r`: the vector at the clamped position `idx[r]`. -/
theorem vecGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecTakeDims N R wf) x idx (ix1 r) = x (ix1 (clampRow N hN (idx (ix2 r (0 : Fin 1))))) := by
  unfold Host.gather
  congr 1
  funext a
  obtain rfl : a = 0 := Subsingleton.elim _ _
  refine Fin.ext ?_
  -- the one axis: collapsed and start-indexed, so the coordinate is the clamped start alone
  show (vecTakeDims N R wf).start (ix1 r) idx 0 + (vecTakeDims N R wf).batchCoord (ix1 r) 0
    + (vecTakeDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N R wf).startIndexMap from List.mem_singleton.mpr rfl)]
  -- the start index is read at [r, 0]
  have hsi : (vecTakeDims N R wf).siIdx (ix1 r) ⟨List.idxOf (0 : Fin 1) (vecTakeDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- TWO GATHERS COMPOSED. Rows of `tbl` taken by the list `nb` read through `src` (each entry of `nb` passed
    through `f` first) are the rows that `src` takes of the rows `nb` takes of `tbl`. -/
theorem gather_compose {α : Type} {V D N E : Nat} (hV : 0 < V) (hN : 0 < N)
    (wfv : GatherDims.WF ⟨1, ![N]⟩ ⟨2, ![E, 1]⟩ ⟨1, ![E]⟩ [] [0] [] [0] [] 1 ![1])
    (wfVE : GatherDims.WF ⟨2, ![V, D]⟩ ⟨2, ![E, 1]⟩ ⟨2, ![E, D]⟩ [1] [0] [] [0] [] 1 ![1, D])
    (wfVN : GatherDims.WF ⟨2, ![V, D]⟩ ⟨2, ![N, 1]⟩ ⟨2, ![N, D]⟩ [1] [0] [] [0] [] 1 ![1, D])
    (wfNE : GatherDims.WF ⟨2, ![N, D]⟩ ⟨2, ![E, 1]⟩ ⟨2, ![E, D]⟩ [1] [0] [] [0] [] 1 ![1, D])
    (tbl : (⟨2, ![V, D]⟩ : Shape).Idx → α) (nb : IVec ⟨1, ![N]⟩ 32) (src : IVec ⟨2, ![E, 1]⟩ 32)
    (f : BitVec 32 → BitVec 32)
    (idxE : IVec ⟨2, ![E, 1]⟩ 32) (hE : ∀ r : Fin E, idxE (ix2 r (0 : Fin 1)) = f (Host.gather (vecTakeDims N E wfv) nb src (ix1 r)))
    (idxN : IVec ⟨2, ![N, 1]⟩ 32) (hNb : ∀ n : Fin N, idxN (ix2 n (0 : Fin 1)) = f (nb (ix1 n))) :
    Host.gather (rowTakeDims V D E wfVE) tbl idxE
      = Host.gather (rowTakeDims N D E wfNE) (Host.gather (rowTakeDims V D N wfVN) tbl idxN) src := by
  funext j
  obtain ⟨r, d, rfl⟩ : ∃ (r : Fin E) (d : Fin D), j = ix2 r d :=
    ⟨⟨(j 0).val, idx2_lt0 j⟩, ⟨(j 1).val, idx2_lt1 j⟩, by funext a; match a with | ⟨0, _⟩ => rfl | ⟨1, _⟩ => rfl⟩
  -- both sides are tbl at row clamp(f(nb[clamp(src[r])])), column d
  rw [rowGather_apply hV wfVE tbl idxE r d, rowGather_apply hN wfNE _ src r d,
    rowGather_apply hV wfVN tbl idxN _ d, hE r, vecGather_apply hN wfv nb src r, hNb]

end Cert.Readout

end
-- ==== Proof.Bridge.lean ====
/-
  The kernel's host stretch and the reference compute the same summed messages and the same in-degrees.
  The one difference is the order of two lookups: the kernel looks each edge's source node up in the list of table
  ids and then takes that row of the table; the reference first takes every node's row and then each edge's source
  node's row of those. Both read the table at the same row (`gather_compose`). Everything else is the same
  operations on the same arguments.
-/
import proofs.«425665_j32229434589775_2_alg».proof.Proof.HostIn
import proofs.«425665_j32229434589775_2_alg».proof.Proof.Gen.ReferenceIdeal.Read
import proofs.«425665_j32229434589775_2_alg».proof.Proof.Gather

noncomputable section

namespace Cert.Bridge

open Idealize.ShloMosaic Idealize.ShloMosaic.TcCoe Idealize.SL.Sem Idealize.ShloMosaic.ValueIdx Cert.Readout
open Cert.KernelIdeal.Hand

variable (m : (ℓ : Loc Cert.KernelIdeal.nD Cert.KernelIdeal.τ Cert.KernelIdeal.sig) → Buf (Elt Ideal) ℓ)

/-- A negative table index wraps by the table's 50000 rows. -/
def wrapRow (b : BitVec 32) : BitVec 32 := Scalar.select (IntOp.cmpi .slt b 0#32) (IntOp.addi b 50000#32) b

/-- Each edge's source node's feature row, either way round. -/
theorem feat_eq (c : Dev Cert.KernelIdeal.nD) :
    feat m c = Cert.ReferenceIdeal.Read.val_main_v20 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg5)) := by
  unfold feat Cert.ReferenceIdeal.Read.val_main_v20 Cert.ReferenceIdeal.Read.val_main_v6
  refine gather_compose (V := 50000) (D := 300) (N := 100000) (E := 500000) (by decide) (by decide)
    Cert.KernelIdeal.Gen.gather_S100000_S500000x1_S500000_n_0_n_n_0_1_1_wf
    Cert.KernelIdeal.Gen.gather_S50000x300_S500000x1_S500000x300_1_0_n_n_0_1_1300_wf
    Cert.ReferenceIdeal.Gen.gather_S50000x300_S100000x1_S100000x300_1_0_n_n_0_1_1300_wf
    Cert.ReferenceIdeal.Gen.gather_S100000x300_S500000x1_S500000x300_1_0_n_n_0_1_1300_wf
    _ (m ((c : Thread Cert.KernelIdeal.nD Cert.KernelIdeal.τ).loc Cert.KernelIdeal.main_arg0)) _ wrapRow _ (fun r => ?_) _ (fun n => ?_)
  · refine (broadcastInDim_apply _ _ (rowIdx m c) (ix2 r (0 : Fin 1)) (ix1 r) (fun a => ?_)).trans rfl
    match a with
    | ⟨0, _⟩ => show r.val = if (500000 : Nat) = 1 then 0 else r.val; rw [if_neg (by decide)]
  · refine (Cert.ReferenceIdeal.Read.val_main_v5_apply _ (ix2 n (0 : Fin 1))).trans ?_
    have e : Cert.ReferenceIdeal.Read.idx_main_v5 (ix2 n (0 : Fin 1)) = ix1 n := funext fun a => by
      match a with
      | ⟨0, _⟩ => rfl
    rw [e]
    rfl

/-- Each edge's weight along its message, in both programs the same lookup. -/
theorem wgt_eq (c : Dev Cert.KernelIdeal.nD) :
    wgt m c = Cert.ReferenceIdeal.Read.val_main_v21 (F := Ideal)
      (m ((c : Thread Cert.KernelIdeal.nD Cert.KernelIdeal.τ).loc Cert.KernelIdeal.main_arg1))
      (m ((c : Thread Cert.KernelIdeal.nD Cert.KernelIdeal.τ).loc Cert.KernelIdeal.main_arg6)) := rfl

/-- The summed messages agree. -/
theorem SmK_eq (c : Dev Cert.KernelIdeal.nD) :
    SmK m c = Cert.ReferenceIdeal.Read.val_main_v25 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg5))
      (m ((c : Thread Cert.KernelIdeal.nD Cert.KernelIdeal.τ).loc Cert.KernelIdeal.main_arg6)) := by
  unfold SmK Cert.ReferenceIdeal.Read.val_main_v25 Cert.ReferenceIdeal.Read.val_main_v22
  rw [feat_eq, wgt_eq]
  rfl

/-- The in-degrees agree. -/
theorem CtK_eq (c : Dev Cert.KernelIdeal.nD) :
    CtK m c = Cert.ReferenceIdeal.Read.val_main_v29 (F := Ideal)
      (m ((c : Thread Cert.KernelIdeal.nD Cert.KernelIdeal.τ).loc Cert.KernelIdeal.main_arg3)) := rfl

end Cert.Bridge

end
-- ==== Proof.lean ====
/-
  The certificate: a graph readout kernel against its jnp reference, equal over the extended reals.

  Both programs gather each edge's source node's feature row, weight it, and sum the messages and the in-degrees per
  destination node with the same host operations (the two lookups composed in the other order: Proof/Bridge.lean).
  The reference then divides, pools the mean messages per graph with one more scatter-add, rectifies, multiplies by the
  weights and adds the bias (Proof/Ref.lean). The kernel pads the node arrays to 13 blocks of 8192, and at each grid
  point adds to a [512, 300] accumulator the product of the block's one-hot graph-id matrix with the block's mean
  messages; at the last point it applies the rectifier, the weights and the bias (Proof/KernelValue.lean,
  Proof/KernelRun.lean). A one-hot product is the pooled sum because 0 · x = 0 and 1 · x = x on the extended reals, and
  the padded positions carry graph id −1; no finiteness is needed. Both results are the one function `Out` (Proof/Spec.lean).
  The frames are the generated ones; the idealization rewrote nothing, so `preserves` is trivial.
-/
import proofs.«425665_j32229434589775_2_alg».proof.Defs
import proofs.«425665_j32229434589775_2_alg».proof.Proof.Gen.Kernel
import proofs.«425665_j32229434589775_2_alg».proof.Proof.Gen.Kernel.Skeleton
import proofs.«425665_j32229434589775_2_alg».proof.Proof.Gen.Kernel.Launch
import proofs.«425665_j32229434589775_2_alg».proof.Proof.Gen.Kernel.Points
import proofs.«425665_j32229434589775_2_alg».proof.Proof.Gen.Kernel.Frame
import proofs.«425665_j32229434589775_2_alg».proof.Proof.Gen.KernelIdeal
import proofs.«425665_j32229434589775_2_alg».proof.Proof.Gen.KernelIdeal.Skeleton
import proofs.«425665_j32229434589775_2_alg».proof.Proof.Gen.KernelIdeal.Launch
import proofs.«425665_j32229434589775_2_alg».proof.Proof.Gen.KernelIdeal.Points
import proofs.«425665_j32229434589775_2_alg».proof.Proof.Gen.KernelIdeal.Frame
import proofs.«425665_j32229434589775_2_alg».proof.Proof.Gen.KernelIdeal.Value
import proofs.«425665_j32229434589775_2_alg».proof.Proof.Gen.ReferenceIdeal
import proofs.«425665_j32229434589775_2_alg».proof.Proof.Gen.ReferenceIdeal.Run
import proofs.«425665_j32229434589775_2_alg».proof.Proof.Gen.ReferenceIdeal.Read
import proofs.«425665_j32229434589775_2_alg».proof.Proof.Gen.Pre_finite_inputs
import proofs.«425665_j32229434589775_2_alg».proof.Proof.KernelRun
import proofs.«425665_j32229434589775_2_alg».proof.Proof.Ref
import proofs.«425665_j32229434589775_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with their result at `Out` of the same five arrays. -/
theorem algebraic : Cert.algebraic_KernelIdeal_ReferenceIdeal := by
  intro m ρ m' ρ' _ hagree
  refine ⟨fun c => Cert.Readout.Out (Cert.KernelIdeal.Hand.SmK m c) (Cert.KernelIdeal.Hand.CtK m c)
      (m ((c : Thread Cert.KernelIdeal.nD Cert.KernelIdeal.τ).loc Cert.KernelIdeal.main_arg4))
      (m ((c : Thread Cert.KernelIdeal.nD Cert.KernelIdeal.τ).loc Cert.KernelIdeal.main_arg7))
      (m ((c : Thread Cert.KernelIdeal.nD Cert.KernelIdeal.τ).loc Cert.KernelIdeal.main_arg8)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.Hand.ref_out,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  show _ = Cert.Readout.Out (Cert.KernelIdeal.Hand.SmK m c) (Cert.KernelIdeal.Hand.CtK m c) _ _ _
  rw [Cert.Bridge.SmK_eq, Cert.Bridge.CtK_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
